-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x512 : Shape := ⟨2, ![65536, 512]⟩
abbrev S512x256 : Shape := ⟨2, ![512, 256]⟩
abbrev S512 : Shape := ⟨1, ![512]⟩
abbrev S1536x512 : Shape := ⟨2, ![1536, 512]⟩
abbrev S1536 : Shape := ⟨1, ![1536]⟩
abbrev S32x512 : Shape := ⟨2, ![32, 512]⟩
abbrev S32 : Shape := ⟨1, ![32]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x512 : S_.BroadcastsInDim S65536x512 (![] : Fin 0 → Fin S65536x512.rank)
  reducesTo_S65536x512_S_d0_1 : S65536x512.ReducesTo [0, 1] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg11 : FVec F S32 .f32) (main_v48 : IVec S_ 1) (main_v49 : FVec F S32x512 .f32) (main_v50 : FVec F S32x512 .f32) : IVec S_ 1 :=
  let main_v51 : IVec S32x512 1 := cmpf .olt main_v49 main_v50
  let main_c_19 : IVec S_ 1 := constantI S_ 1 1#1
  let main_v52 : IVec S_ 1 := (fun x v => Host.reduce IntOp.andi x v reducesTo_S32x512_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg7 : FVec F S1536 .f32) (main_arg8 : FVec F S32x512 .f32) (main_arg9 : FVec F S32 .f32) (main_arg10 : FVec F S32x512 .f32) (main_arg11 : FVec F S32 .f32) (main_v33 : IVec S_ 1) : IVec S_ 1 :=
  let main_v34 : FVec F S1536 .f32 := Host.absf main_arg7
  let main_cst_12 : FVec F S_ .f32 := constant S_ .f32 0x7F800000#32
  let main_v35 : FVec F S1536 .f32 := broadcastInDim S1536 ![] bcast_S_S1536 main_cst_12
  let main_v36 : IVec S1536 1 := cmpf .olt main_v34 main_v35
  let main_c_13 : IVec S_ 1 := constantI S_ 1 1#1
  let main_v37 : IVec S_ 1 := (fun x v => Host.reduce IntOp.andi x v reducesTo_S1536_S_d0 h_S_) main_v36 main_c_13
  let main_v38 : IVec S_ 1 := andi main_v33 main_v37
  let main_v39 : FVec F S32x512 .f32 := Host.absf main_arg8
  let main_cst_14 : FVec F S_ .f32 := constant S_ .f32 0x7F800000#32
  let main_v40 : FVec F S32x512 .f32 := broadcastInDim S32x512 ![] bcast_S_S32x512 main_cst_14
  let main_v41 : IVec S32x512 1 := cmpf .olt main_v39 main_v40
  let main_c_15 : IVec S_ 1 := constantI S_ 1 1#1
  let main_v42 : IVec S_ 1 := (fun x v => Host.reduce IntOp.andi x v reducesTo_S32x512_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x512 .f32 := Host.absf main_arg10
  let main_cst_18 : FVec F S_ .f32 := constant S_ .f32 0x7F800000#32
  let main_v50 : FVec F S32x512 .f32 := broadcastInDim S32x512 ![] bcast_S_S32x512 main_cst_18
  fn_part3 (F := F) main_arg11 main_v48 main_v49 main_v50

def fn_part1 {F : FTy → Type} [FloatOps F] (main_arg4 : FVec F S1536x512 .f32) (main_arg5 : FVec F S1536x512 .f32) (main_arg6 : FVec F S1536 .f32) (main_arg7 : FVec F S1536 .f32) (main_arg8 : FVec F S32x512 .f32) (main_arg9 : FVec F S32 .f32) (main_arg10 : FVec F S32x512 .f32) (main_arg11 : FVec F S32 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1536x512 .f32 := Host.absf main_arg4
  let main_cst_6 : FVec F S_ .f32 := constant S_ .f32 0x7F800000#32
  let main_v20 : FVec F S1536x512 .f32 := broadcastInDim S1536x512 ![] bcast_S_S1536x512 main_cst_6
  let main_v21 : IVec S1536x512 1 := cmpf .olt main_v19 main_v20
  let main_c_7 : IVec S_ 1 := constantI S_ 1 1#1
  let main_v22 : IVec S_ 1 := (fun x v => Host.reduce IntOp.andi x v reducesTo_S1536x512_S_d0_1 h_S_) main_v21 main_c_7
  let main_v23 : IVec S_ 1 := andi main_v18 main_v22
  let main_v24 : FVec F S1536x512 .f32 := Host.absf main_arg5
  let main_cst_8 : FVec F S_ .f32 := constant S_ .f32 0x7F800000#32
  let main_v25 : FVec F S1536x512 .f32 := broadcastInDim S1536x512 ![] bcast_S_S1536x512 main_cst_8
  let main_v26 : IVec S1536x512 1 := cmpf .olt main_v24 main_v25
  let main_c_9 : IVec S_ 1 := constantI S_ 1 1#1
  let main_v27 : IVec S_ 1 := (fun x v => Host.reduce IntOp.andi x v reducesTo_S1536x512_S_d0_1 h_S_) main_v26 main_c_9
  let main_v28 : IVec S_ 1 := andi main_v23 main_v27
  let main_v29 : FVec F S1536 .f32 := Host.absf main_arg6
  let main_cst_10 : FVec F S_ .f32 := constant S_ .f32 0x7F800000#32
  let main_v30 : FVec F S1536 .f32 := broadcastInDim S1536 ![] bcast_S_S1536 main_cst_10
  let main_v31 : IVec S1536 1 := cmpf .olt main_v29 main_v30
  let main_c_11 : IVec S_ 1 := constantI S_ 1 1#1
  let main_v32 : IVec S_ 1 := (fun x v => Host.reduce IntOp.andi x v reducesTo_S1536_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S65536x256 .f32) (main_arg1 : FVec F S65536x512 .f32) (main_arg2 : FVec F S512x256 .f32) (main_arg3 : FVec F S512 .f32) (main_arg4 : FVec F S1536x512 .f32) (main_arg5 : FVec F S1536x512 .f32) (main_arg6 : FVec F S1536 .f32) (main_arg7 : FVec F S1536 .f32) (main_arg8 : FVec F S32x512 .f32) (main_arg9 : FVec F S32 .f32) (main_arg10 : FVec F S32x512 .f32) (main_arg11 : FVec F S32 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_v13 main_v16
-- ==== Kernel.lean ====
abbrev S65536x256 : Shape := ⟨2, ![65536, 256]⟩
abbrev S65536x512 : Shape := ⟨2, ![65536, 512]⟩
abbrev S512x256 : Shape := ⟨2, ![512, 256]⟩
abbrev S512 : Shape := ⟨1, ![512]⟩
abbrev S1536x512 : Shape := ⟨2, ![1536, 512]⟩
abbrev S1536 : Shape := ⟨1, ![1536]⟩
abbrev S32x512 : Shape := ⟨2, ![32, 512]⟩
abbrev S32 : Shape := ⟨1, ![32]⟩
abbrev S131072x32 : Shape := ⟨2, ![131072, 32]⟩
abbrev S256x256 : Shape := ⟨2, ![256, 256]⟩
abbrev S256x512 : Shape := ⟨2, ![256, 512]⟩
abbrev S512x32 : Shape := ⟨2, ![512, 32]⟩
abbrev S1x512 : Shape := ⟨2, ![1, 512]⟩
abbrev S512x1536 : Shape := ⟨2, ![512, 1536]⟩
abbrev S256x1536 : Shape := ⟨2, ![256, 1536]⟩
abbrev S1x1536 : Shape := ⟨2, ![1, 1536]⟩
abbrev S256x32 : Shape := ⟨2, ![256, 32]⟩
abbrev S1x32 : Shape := ⟨2, ![1, 32]⟩
abbrev S256x1x32 : Shape := ⟨3, ![256, 1, 32]⟩
abbrev S256x2x32 : Shape := ⟨3, ![256, 2, 32]⟩

abbrev nBuf : Space → Nat
  | .hbm => 14
  | .vmem => 18
  | .smem => 0
  | _ => 0

abbrev bufTy : (tb : Table) → Fin (tcTables nBuf tb) → BufTy
  | .hbm, ⟨0, _⟩ => ⟨S65536x256, .f32⟩
  | .hbm, ⟨1, _⟩ => ⟨S65536x512, .f32⟩
  | .hbm, ⟨2, _⟩ => ⟨S512x256, .f32⟩
  | .hbm, ⟨3, _⟩ => ⟨S512, .f32⟩
  | .hbm, ⟨4, _⟩ => ⟨S1536x512, .f32⟩
  | .hbm, ⟨5, _⟩ => ⟨S1536x512, .f32⟩
  | .hbm, ⟨6, _⟩ => ⟨S1536, .f32⟩
  | .hbm, ⟨7, _⟩ => ⟨S1536, .f32⟩
  | .hbm, ⟨8, _⟩ => ⟨S32x512, .f32⟩
  | .hbm, ⟨9, _⟩ => ⟨S32, .f32⟩
  | .hbm, ⟨10, _⟩ => ⟨S32x512, .f32⟩
  | .hbm, ⟨11, _⟩ => ⟨S32, .f32⟩
  | .hbm, ⟨12, _⟩ => ⟨S131072x32, .f32⟩
  | .hbm, ⟨13, _⟩ => ⟨S65536x512, .f32⟩
  | .local _ .vmem, ⟨0, _⟩ => ⟨S256x256, .f32⟩
  | .local _ .vmem, ⟨1, _⟩ => ⟨S256x256, .f32⟩
  | .local _ .vmem, ⟨2, _⟩ => ⟨S256x512, .f32⟩
  | .local _ .vmem, ⟨3, _⟩ => ⟨S256x512, .f32⟩
  | .local _ .vmem, ⟨4, _⟩ => ⟨S512x256, .f32⟩
  | .local _ .vmem, ⟨5, _⟩ => ⟨S512, .f32⟩
  | .local _ .vmem, ⟨6, _⟩ => ⟨S1536x512, .f32⟩
  | .local _ .vmem, ⟨7, _⟩ => ⟨S1536x512, .f32⟩
  | .local _ .vmem, ⟨8, _⟩ => ⟨S1536, .f32⟩
  | .local _ .vmem, ⟨9, _⟩ => ⟨S1536, .f32⟩
  | .local _ .vmem, ⟨10, _⟩ => ⟨S32x512, .f32⟩
  | .local _ .vmem, ⟨11, _⟩ => ⟨S32, .f32⟩
  | .local _ .vmem, ⟨12, _⟩ => ⟨S32x512, .f32⟩
  | .local _ .vmem, ⟨13, _⟩ => ⟨S32, .f32⟩
  | .local _ .vmem, ⟨14, _⟩ => ⟨S512x32, .f32⟩
  | .local _ .vmem, ⟨15, _⟩ => ⟨S512x32, .f32⟩
  | .local _ .vmem, ⟨16, _⟩ => ⟨S256x512, .f32⟩
  | .local _ .vmem, ⟨17, _⟩ => ⟨S256x512, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  transposes_S512x256_p1_0_S256x512 : S512x256.Transposes [1, 0] S256x512
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  inb_S1536x512_S1536x512_0_0 : ∀ a, (![0, 0] : Fin 2 → Nat) a + S1536x512.size a ≤ S1536x512.size a
  h_S1536x512 : 0 < S1536x512.numel
  transposes_S1536x512_p1_0_S512x1536 : S1536x512.Transposes [1, 0] S512x1536
  inb_S1536_S1536_0 : ∀ a, (![0] : Fin 1 → Nat) a + S1536.size a ≤ S1536.size a
  h_S1536 : 0 < S1536.numel
  shapeCasts_S1536_S1x1536 : S1536.ShapeCasts S1x1536
  broadcasts_S1x1536_S256x1536 : S1x1536.Broadcasts S256x1536
  slices_S256x1536_o0_0_S256x512 : S256x1536.Slices ![0, 0] S256x512
  slices_S256x1536_o0_512_S256x512 : S256x1536.Slices ![0, 512] S256x512
  slices_S256x1536_o0_1024_S256x512 : S256x1536.Slices ![0, 1024] S256x512
  inb_S32x512_S32x512_0_0 : ∀ a, (![0, 0] : Fin 2 → Nat) a + S32x512.size a ≤ S32x512.size a
  h_S32x512 : 0 < S32x512.numel
  transposes_S32x512_p1_0_S512x32 : S32x512.Transposes [1, 0] S512x32
  inb_S32_S32_0 : ∀ a, (![0] : Fin 1 → Nat) a + S32.size a ≤ S32.size a
  h_S32 : 0 < S32.numel
  shapeCasts_S32_S1x32 : S32.ShapeCasts S1x32
  broadcasts_S1x32_S256x32 : S1x32.Broadcasts S256x32
  shapeCasts_S256x32_S256x1x32 : S256x32.ShapeCasts S256x1x32
  concatenates_S256x1x32_S256x1x32_S256x2x32_d1 : Shape.Concatenates [S256x1x32, S256x1x32] S256x2x32 1
  shapeCasts_S256x2x32_S512x32 : S256x2x32.ShapeCasts S512x32
  inb_S512x32_S512x32_0_0 : ∀ a, (![0, 0] : Fin 2 → Nat) a + S512x32.size a ≤ S512x32.size a
  h_S512x32 : 0 < S512x32.numel
  dot_S256x256_S256x512_S256x512_1_0_0_1_n_n_wf : DotDims.WF S256x256 S256x512 S256x512 [1] [0] [0] [1] [] []
  dot_S256x512_S512x1536_S256x1536_1_0_0_1_n_n_wf : DotDims.WF S256x512 S512x1536 S256x1536 [1] [0] [0] [1] [] []
  dot_S256x512_S512x32_S256x32_1_0_0_1_n_n_wf : DotDims.WF S256x512 S512x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S65536x256.size a
  hwx0_0 : ∀ i : grid0.Coords, EltTy.bits .f32 = 32 ∨ (Rect.block (s := S65536x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S65536x512.size a
  hwx0_1 : ∀ i : grid0.Coords, EltTy.bits .f32 = 32 ∨ (Rect.block (s := S65536x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1536x512.size a ≤ S1536x512.size a
  hwx0_4 : ∀ i : grid0.Coords, EltTy.bits .f32 = 32 ∨ (Rect.block (s := S1536x512) S1536x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1536x512.size a ≤ S1536x512.size a
  hwx0_5 : ∀ i : grid0.Coords, EltTy.bits .f32 = 32 ∨ (Rect.block (s := S1536x512) S1536x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1536.size a ≤ S1536.size a
  hwx0_6 : ∀ i : grid0.Coords, EltTy.bits .f32 = 32 ∨ (Rect.block (s := S1536) S1536.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1536.size a ≤ S1536.size a
  hwx0_7 : ∀ i : grid0.Coords, EltTy.bits .f32 = 32 ∨ (Rect.block (s := S1536) S1536.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x512.size a ≤ S32x512.size a
  hwx0_8 : ∀ i : grid0.Coords, EltTy.bits .f32 = 32 ∨ (Rect.block (s := S32x512) S32x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32.size a ≤ S32.size a
  hwx0_9 : ∀ i : grid0.Coords, EltTy.bits .f32 = 32 ∨ (Rect.block (s := S32) S32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x512.size a ≤ S32x512.size a
  hwx0_10 : ∀ i : grid0.Coords, EltTy.bits .f32 = 32 ∨ (Rect.block (s := S32x512) S32x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32.size a ≤ S32.size a
  hwx0_11 : ∀ i : grid0.Coords, EltTy.bits .f32 = 32 ∨ (Rect.block (s := S32) S32.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x32.size a ≤ S131072x32.size a
  hwx0_12 : ∀ i : grid0.Coords, EltTy.bits .f32 = 32 ∨ (Rect.block (s := S131072x32) S512x32.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x512.size a ≤ S65536x512.size a
  hwx0_13 : ∀ i : grid0.Coords, EltTy.bits .f32 = 32 ∨ (Rect.block (s := S65536x512) S256x512.size (cc0_transform_13 i) (hinb0_13 i)).WholeWords (EltTy.packing .f32)

variable [Facts₀]

def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S256x512_S512x1536_S256x1536_1_0_0_1_n_n : DotDims S256x512 S512x1536 S256x1536 where
  lhsContracting := [1]
  rhsContracting := [0]
  lhsNonContracting := [0]
  rhsNonContracting := [1]
  lhsBatch := []
  rhsBatch := []
  wf := dot_S256x512_S512x1536_S256x1536_1_0_0_1_n_n_wf
def dot_S256x512_S512x32_S256x32_1_0_0_1_n_n : DotDims S256x512 S512x32 S256x32 where
  lhsContracting := [1]
  rhsContracting := [0]
  lhsNonContracting := [0]
  rhsNonContracting := [1]
  lhsBatch := []
  rhsBatch := []
  wf := dot_S256x512_S512x32_S256x32_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1536x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1536x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1536.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S32x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v0_0) S512x32.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_1) S256x512.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x512 : Shape := ⟨2, ![65536, 512]⟩
abbrev S512x256 : Shape := ⟨2, ![512, 256]⟩
abbrev S512 : Shape := ⟨1, ![512]⟩
abbrev S1536x512 : Shape := ⟨2, ![1536, 512]⟩
abbrev S1536 : Shape := ⟨1, ![1536]⟩
abbrev S32x512 : Shape := ⟨2, ![32, 512]⟩
abbrev S32 : Shape := ⟨1, ![32]⟩
abbrev S256x512 : Shape := ⟨2, ![256, 512]⟩
abbrev S1x512 : Shape := ⟨2, ![1, 512]⟩
abbrev S_ : Shape := ⟨0, ![]⟩
abbrev S512x1536 : Shape := ⟨2, ![512, 1536]⟩
abbrev S65536x1536 : Shape := ⟨2, ![65536, 1536]⟩
abbrev S1x1536 : Shape := ⟨2, ![1, 1536]⟩
abbrev S512x32 : Shape := ⟨2, ![512, 32]⟩
abbrev S65536x32 : Shape := ⟨2, ![65536, 32]⟩
abbrev S1x32 : Shape := ⟨2, ![1, 32]⟩
abbrev S65536x1x32 : Shape := ⟨3, ![65536, 1, 32]⟩
abbrev S65536x2x32 : Shape := ⟨3, ![65536, 2, 32]⟩
abbrev S131072x32 : Shape := ⟨2, ![131072, 32]⟩

abbrev nBuf : Space → Nat
  | .hbm => 77
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x512, .f32⟩
  | .hbm, ⟨2, _⟩ => ⟨S512x256, .f32⟩
  | .hbm, ⟨3, _⟩ => ⟨S512, .f32⟩
  | .hbm, ⟨4, _⟩ => ⟨S1536x512, .f32⟩
  | .hbm, ⟨5, _⟩ => ⟨S1536x512, .f32⟩
  | .hbm, ⟨6, _⟩ => ⟨S1536, .f32⟩
  | .hbm, ⟨7, _⟩ => ⟨S1536, .f32⟩
  | .hbm, ⟨8, _⟩ => ⟨S32x512, .f32⟩
  | .hbm, ⟨9, _⟩ => ⟨S32, .f32⟩
  | .hbm, ⟨10, _⟩ => ⟨S32x512, .f32⟩
  | .hbm, ⟨11, _⟩ => ⟨S32, .f32⟩
  | .hbm, ⟨12, _⟩ => ⟨S256x512, .f32⟩
  | .hbm, ⟨13, _⟩ => ⟨S65536x512, .f32⟩
  | .hbm, ⟨14, _⟩ => ⟨S1x512, .f32⟩
  | .hbm, ⟨15, _⟩ => ⟨S65536x512, .f32⟩
  | .hbm, ⟨16, _⟩ => ⟨S65536x512, .f32⟩
  | .hbm, ⟨17, _⟩ => ⟨S_, .f32⟩
  | .hbm, ⟨18, _⟩ => ⟨S65536x512, .f32⟩
  | .hbm, ⟨19, _⟩ => ⟨S65536x512, .f32⟩
  | .hbm, ⟨20, _⟩ => ⟨S512x1536, .f32⟩
  | .hbm, ⟨21, _⟩ => ⟨S65536x1536, .f32⟩
  | .hbm, ⟨22, _⟩ => ⟨S1x1536, .f32⟩
  | .hbm, ⟨23, _⟩ => ⟨S65536x1536, .f32⟩
  | .hbm, ⟨24, _⟩ => ⟨S65536x1536, .f32⟩
  | .hbm, ⟨25, _⟩ => ⟨S512x1536, .f32⟩
  | .hbm, ⟨26, _⟩ => ⟨S65536x1536, .f32⟩
  | .hbm, ⟨27, _⟩ => ⟨S1x1536, .f32⟩
  | .hbm, ⟨28, _⟩ => ⟨S65536x1536, .f32⟩
  | .hbm, ⟨29, _⟩ => ⟨S65536x1536, .f32⟩
  | .hbm, ⟨30, _⟩ => ⟨S65536x512, .f32⟩
  | .hbm, ⟨31, _⟩ => ⟨S65536x512, .f32⟩
  | .hbm, ⟨32, _⟩ => ⟨S65536x512, .f32⟩
  | .hbm, ⟨33, _⟩ => ⟨S65536x512, .f32⟩
  | .hbm, ⟨34, _⟩ => ⟨S65536x512, .f32⟩
  | .hbm, ⟨35, _⟩ => ⟨S65536x512, .f32⟩
  | .hbm, ⟨36, _⟩ => ⟨S65536x512, .f32⟩
  | .hbm, ⟨37, _⟩ => ⟨S65536x512, .f32⟩
  | .hbm, ⟨38, _⟩ => ⟨S65536x512, .f32⟩
  | .hbm, ⟨39, _⟩ => ⟨S_, .f32⟩
  | .hbm, ⟨40, _⟩ => ⟨S65536x512, .f32⟩
  | .hbm, ⟨41, _⟩ => ⟨S65536x512, .f32⟩
  | .hbm, ⟨42, _⟩ => ⟨S_, .f32⟩
  | .hbm, ⟨43, _⟩ => ⟨S65536x512, .f32⟩
  | .hbm, ⟨44, _⟩ => ⟨S65536x512, .f32⟩
  | .hbm, ⟨45, _⟩ => ⟨S65536x512, .f32⟩
  | .hbm, ⟨46, _⟩ => ⟨S65536x512, .f32⟩
  | .hbm, ⟨47, _⟩ => ⟨S65536x512, .f32⟩
  | .hbm, ⟨48, _⟩ => ⟨S_, .f32⟩
  | .hbm, ⟨49, _⟩ => ⟨S65536x512, .f32⟩
  | .hbm, ⟨50, _⟩ => ⟨S65536x512, .f32⟩
  | .hbm, ⟨51, _⟩ => ⟨S_, .f32⟩
  | .hbm, ⟨52, _⟩ => ⟨S65536x512, .f32⟩
  | .hbm, ⟨53, _⟩ => ⟨S65536x512, .f32⟩
  | .hbm, ⟨54, _⟩ => ⟨S65536x512, .f32⟩
  | .hbm, ⟨55, _⟩ => ⟨S65536x512, .f32⟩
  | .hbm, ⟨56, _⟩ => ⟨S65536x512, .f32⟩
  | .hbm, ⟨57, _⟩ => ⟨S_, .f32⟩
  | .hbm, ⟨58, _⟩ => ⟨S65536x512, .f32⟩
  | .hbm, ⟨59, _⟩ => ⟨S65536x512, .f32⟩
  | .hbm, ⟨60, _⟩ => ⟨S65536x512, .f32⟩
  | .hbm, ⟨61, _⟩ => ⟨S65536x512, .f32⟩
  | .hbm, ⟨62, _⟩ => ⟨S65536x512, .f32⟩
  | .hbm, ⟨63, _⟩ => ⟨S512x32, .f32⟩
  | .hbm, ⟨64, _⟩ => ⟨S65536x32, .f32⟩
  | .hbm, ⟨65, _⟩ => ⟨S1x32, .f32⟩
  | .hbm, ⟨66, _⟩ => ⟨S65536x32, .f32⟩
  | .hbm, ⟨67, _⟩ => ⟨S65536x32, .f32⟩
  | .hbm, ⟨68, _⟩ => ⟨S512x32, .f32⟩
  | .hbm, ⟨69, _⟩ => ⟨S65536x32, .f32⟩
  | .hbm, ⟨70, _⟩ => ⟨S1x32, .f32⟩
  | .hbm, ⟨71, _⟩ => ⟨S65536x32, .f32⟩
  | .hbm, ⟨72, _⟩ => ⟨S65536x32, .f32⟩
  | .hbm, ⟨73, _⟩ => ⟨S65536x1x32, .f32⟩
  | .hbm, ⟨74, _⟩ => ⟨S65536x1x32, .f32⟩
  | .hbm, ⟨75, _⟩ => ⟨S65536x2x32, .f32⟩
  | .hbm, ⟨76, _⟩ => ⟨S131072x32, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_cst_0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]

class Facts₀ : Prop where
  transposes_S512x256_S256x512_1_0 : S512x256.Transposes [1, 0] S256x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  transposes_S1536x512_S512x1536_1_0 : S1536x512.Transposes [1, 0] S512x1536
  bcast_S1536_S1x1536_1 : S1536.BroadcastsInDim S1x1536 (![1] : Fin 1 → Fin S1x1536.rank)
  bcast_S1x1536_S65536x1536_0_1 : S1x1536.BroadcastsInDim S65536x1536 (![0, 1] : Fin 2 → Fin S65536x1536.rank)
  slices_S65536x1536_S65536x512_0_0 : S65536x1536.Slices ![0, 0] S65536x512
  slices_S65536x1536_S65536x512_0_512 : S65536x1536.Slices ![0, 512] S65536x512
  slices_S65536x1536_S65536x512_0_1024 : S65536x1536.Slices ![0, 1024] S65536x512
  transposes_S32x512_S512x32_1_0 : S32x512.Transposes [1, 0] S512x32
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S65536x32_S65536x1x32_0_2 : S65536x32.BroadcastsInDim S65536x1x32 (![0, 2] : Fin 2 → Fin S65536x1x32.rank)
  concatenates_S65536x1x32_S65536x1x32_S65536x2x32_d1 : Shape.Concatenates [S65536x1x32, S65536x1x32] S65536x2x32 1
  shapeCasts_S65536x2x32_S131072x32 : S65536x2x32.ShapeCasts S131072x32
  dot_S65536x256_S256x512_S65536x512_1_0_0_1_n_n_wf : DotDims.WF S65536x256 S256x512 S65536x512 [1] [0] [0] [1] [] []
  dot_S65536x512_S512x1536_S65536x1536_1_0_0_1_n_n_wf : DotDims.WF S65536x512 S512x1536 S65536x1536 [1] [0] [0] [1] [] []
  dot_S65536x512_S512x32_S65536x32_1_0_0_1_n_n_wf : DotDims.WF S65536x512 S512x32 S65536x32 [1] [0] [0] [1] [] []

variable [Facts₀]

def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S65536x512_S512x1536_S65536x1536_1_0_0_1_n_n : DotDims S65536x512 S512x1536 S65536x1536 where
  lhsContracting := [1]
  rhsContracting := [0]
  lhsNonContracting := [0]
  rhsNonContracting := [1]
  lhsBatch := []
  rhsBatch := []
  wf := dot_S65536x512_S512x1536_S65536x1536_1_0_0_1_n_n_wf
def dot_S65536x512_S512x32_S65536x32_1_0_0_1_n_n : DotDims S65536x512 S512x32 S65536x32 where
  lhsContracting := [1]
  rhsContracting := [0]
  lhsNonContracting := [0]
  rhsNonContracting := [1]
  lhsBatch := []
  rhsBatch := []
  wf := dot_S65536x512_S512x32_S65536x32_1_0_0_1_n_n_wf

class Facts : Prop extends Facts₀ where

variable [Facts]
-- ==== Proof.KernelDots.lean ====
/-
  The kernel's three matrix products, read at one entry.

  Each product is taken into a zero accumulator, with the left operand [rows, K] contracted on its second
  axis against the first axis of the right operand [K, cols]. At the exact reals such a product has no
  rounding and no chunk order left in it: entry (p, j) is the plain sum over k of left (p, k) times
  right (k, j). One statement per product shape: 256 x 256 by 256 x 512 (the first layer), 256 x 512 by
  512 x 1536 (both gate layers) and 256 x 512 by 512 x 32 (both action heads).
-/
import proofs.«159720_j18193481466268_1_alg».proof.Proof.Gen.KernelIdeal
import Idealize.ShloMosaic.Lib.ValueIdx
import Idealize.ShloMosaic.PureOps.Ideal.Laws

noncomputable section

namespace Cert.KernelIdeal.Dots

open Cert.KernelIdeal Cert.KernelIdeal.Gen Idealize.ShloMosaic Idealize.ShloMosaic.ValueIdx

/-! ## 256 x 256 by 256 x 512 -/

theorem lhs_fc_0 (i : S256x512.Idx) (q : dot_S256x256_S256x512_S256x512_1_0_0_1_n_n.contr.Idx) :
    (dot_S256x256_S256x512_S256x512_1_0_0_1_n_n.lhsIdx i q 0).val = (i 0).val := by
  unfold DotDims.lhsIdx
  rw [dif_neg (show ¬(0 : Fin S256x256.rank) ∈ dot_S256x256_S256x512_S256x512_1_0_0_1_n_n.lhsBatch by decide), dif_pos (show (0 : Fin S256x256.rank) ∈ dot_S256x256_S256x512_S256x512_1_0_0_1_n_n.lhsNonContracting by decide)]
  rfl
theorem lhs_fc_1 (i : S256x512.Idx) (q : dot_S256x256_S256x512_S256x512_1_0_0_1_n_n.contr.Idx) :
    (dot_S256x256_S256x512_S256x512_1_0_0_1_n_n.lhsIdx i q 1).val = (q ⟨0, by decide⟩).val :=
  dot_S256x256_S256x512_S256x512_1_0_0_1_n_n.lhsIdx_val_of_single rfl i q
theorem rhs_fc_0 (i : S256x512.Idx) (q : dot_S256x256_S256x512_S256x512_1_0_0_1_n_n.contr.Idx) :
    (dot_S256x256_S256x512_S256x512_1_0_0_1_n_n.rhsIdx i q 0).val = (q ⟨0, by decide⟩).val :=
  dot_S256x256_S256x512_S256x512_1_0_0_1_n_n.rhsIdx_val_of_single rfl i q
theorem rhs_fc_1 (i : S256x512.Idx) (q : dot_S256x256_S256x512_S256x512_1_0_0_1_n_n.contr.Idx) :
    (dot_S256x256_S256x512_S256x512_1_0_0_1_n_n.rhsIdx i q 1).val = (i 1).val := by
  unfold DotDims.rhsIdx
  rw [dif_neg (show ¬(1 : Fin S256x512.rank) ∈ dot_S256x256_S256x512_S256x512_1_0_0_1_n_n.rhsBatch by decide), dif_pos (show (1 : Fin S256x512.rank) ∈ dot_S256x256_S256x512_S256x512_1_0_0_1_n_n.rhsNonContracting by decide)]
  rfl

/-- Entry (p, j) of the first layer's product is the sum over the 256 input features. -/
theorem fc_apply (a : FVec Ideal S256x256 .bf16) (w : FVec Ideal S256x512 .bf16) (p : Fin 256) (j : Fin 512) :
    matmul dot_S256x256_S256x512_S256x512_1_0_0_1_n_n none a w (constant S256x512 .f32 0x00000000#32) (ix2 p j)
      = ∑ k : Fin 256, a (ix2 p k) * w (ix2 k j) := by
  simp only [matmul]
  rw [Ideal.matmul_constant_zero_apply, ← Equiv.sum_comp (ValueIdx.contrEquiv1 dot_S256x256_S256x512_S256x512_1_0_0_1_n_n 256 rfl rfl).symm]
  refine Finset.sum_congr rfl fun k _ => ?_
  have hk := ValueIdx.contrEquiv1_symm_val dot_S256x256_S256x512_S256x512_1_0_0_1_n_n 256 rfl rfl k
  have el : dot_S256x256_S256x512_S256x512_1_0_0_1_n_n.lhsIdx (ix2 p j) ((ValueIdx.contrEquiv1 dot_S256x256_S256x512_S256x512_1_0_0_1_n_n 256 rfl rfl).symm k) = ix2 p k := funext fun a => Fin.ext (by
    match a with
    | ⟨0, _⟩ => exact lhs_fc_0 _ _
    | ⟨1, _⟩ => exact (lhs_fc_1 _ _).trans hk)
  have er : dot_S256x256_S256x512_S256x512_1_0_0_1_n_n.rhsIdx (ix2 p j) ((ValueIdx.contrEquiv1 dot_S256x256_S256x512_S256x512_1_0_0_1_n_n 256 rfl rfl).symm k) = ix2 k j := funext fun a => Fin.ext (by
    match a with
    | ⟨0, _⟩ => exact (rhs_fc_0 _ _).trans hk
    | ⟨1, _⟩ => exact rhs_fc_1 _ _)
  rw [el, er]

/-! ## 256 x 512 by 512 x 1536 -/

theorem lhs_gate_0 (i : S256x1536.Idx) (q : dot_S256x512_S512x1536_S256x1536_1_0_0_1_n_n.contr.Idx) :
    (dot_S256x512_S512x1536_S256x1536_1_0_0_1_n_n.lhsIdx i q 0).val = (i 0).val := by
  unfold DotDims.lhsIdx
  rw [dif_neg (show ¬(0 : Fin S256x512.rank) ∈ dot_S256x512_S512x1536_S256x1536_1_0_0_1_n_n.lhsBatch by decide), dif_pos (show (0 : Fin S256x512.rank) ∈ dot_S256x512_S512x1536_S256x1536_1_0_0_1_n_n.lhsNonContracting by decide)]
  rfl
theorem lhs_gate_1 (i : S256x1536.Idx) (q : dot_S256x512_S512x1536_S256x1536_1_0_0_1_n_n.contr.Idx) :
    (dot_S256x512_S512x1536_S256x1536_1_0_0_1_n_n.lhsIdx i q 1).val = (q ⟨0, by decide⟩).val :=
  dot_S256x512_S512x1536_S256x1536_1_0_0_1_n_n.lhsIdx_val_of_single rfl i q
theorem rhs_gate_0 (i : S256x1536.Idx) (q : dot_S256x512_S512x1536_S256x1536_1_0_0_1_n_n.contr.Idx) :
    (dot_S256x512_S512x1536_S256x1536_1_0_0_1_n_n.rhsIdx i q 0).val = (q ⟨0, by decide⟩).val :=
  dot_S256x512_S512x1536_S256x1536_1_0_0_1_n_n.rhsIdx_val_of_single rfl i q
theorem rhs_gate_1 (i : S256x1536.Idx) (q : dot_S256x512_S512x1536_S256x1536_1_0_0_1_n_n.contr.Idx) :
    (dot_S256x512_S512x1536_S256x1536_1_0_0_1_n_n.rhsIdx i q 1).val = (i 1).val := by
  unfold DotDims.rhsIdx
  rw [dif_neg (show ¬(1 : Fin S512x1536.rank) ∈ dot_S256x512_S512x1536_S256x1536_1_0_0_1_n_n.rhsBatch by decide), dif_pos (show (1 : Fin S512x1536.rank) ∈ dot_S256x512_S512x1536_S256x1536_1_0_0_1_n_n.rhsNonContracting by decide)]
  rfl

/-- Entry (p, j) of a gate layer's product is the sum over the 512 hidden features. -/
theorem gate_apply (a : FVec Ideal S256x512 .bf16) (w : FVec Ideal S512x1536 .bf16) (p : Fin 256) (j : Fin 1536) :
    matmul dot_S256x512_S512x1536_S256x1536_1_0_0_1_n_n none a w (constant S256x1536 .f32 0x00000000#32) (ix2 p j)
      = ∑ k : Fin 512, a (ix2 p k) * w (ix2 k j) := by
  simp only [matmul]
  rw [Ideal.matmul_constant_zero_apply, ← Equiv.sum_comp (ValueIdx.contrEquiv1 dot_S256x512_S512x1536_S256x1536_1_0_0_1_n_n 512 rfl rfl).symm]
  refine Finset.sum_congr rfl fun k _ => ?_
  have hk := ValueIdx.contrEquiv1_symm_val dot_S256x512_S512x1536_S256x1536_1_0_0_1_n_n 512 rfl rfl k
  have el : dot_S256x512_S512x1536_S256x1536_1_0_0_1_n_n.lhsIdx (ix2 p j) ((ValueIdx.contrEquiv1 dot_S256x512_S512x1536_S256x1536_1_0_0_1_n_n 512 rfl rfl).symm k) = ix2 p k := funext fun a => Fin.ext (by
    match a with
    | ⟨0, _⟩ => exact lhs_gate_0 _ _
    | ⟨1, _⟩ => exact (lhs_gate_1 _ _).trans hk)
  have er : dot_S256x512_S512x1536_S256x1536_1_0_0_1_n_n.rhsIdx (ix2 p j) ((ValueIdx.contrEquiv1 dot_S256x512_S512x1536_S256x1536_1_0_0_1_n_n 512 rfl rfl).symm k) = ix2 k j := funext fun a => Fin.ext (by
    match a with
    | ⟨0, _⟩ => exact (rhs_gate_0 _ _).trans hk
    | ⟨1, _⟩ => exact rhs_gate_1 _ _)
  rw [el, er]

/-! ## 256 x 512 by 512 x 32 -/

theorem lhs_head_0 (i : S256x32.Idx) (q : dot_S256x512_S512x32_S256x32_1_0_0_1_n_n.contr.Idx) :
    (dot_S256x512_S512x32_S256x32_1_0_0_1_n_n.lhsIdx i q 0).val = (i 0).val := by
  unfold DotDims.lhsIdx
  rw [dif_neg (show ¬(0 : Fin S256x512.rank) ∈ dot_S256x512_S512x32_S256x32_1_0_0_1_n_n.lhsBatch by decide), dif_pos (show (0 : Fin S256x512.rank) ∈ dot_S256x512_S512x32_S256x32_1_0_0_1_n_n.lhsNonContracting by decide)]
  rfl
theorem lhs_head_1 (i : S256x32.Idx) (q : dot_S256x512_S512x32_S256x32_1_0_0_1_n_n.contr.Idx) :
    (dot_S256x512_S512x32_S256x32_1_0_0_1_n_n.lhsIdx i q 1).val = (q ⟨0, by decide⟩).val :=
  dot_S256x512_S512x32_S256x32_1_0_0_1_n_n.lhsIdx_val_of_single rfl i q
theorem rhs_head_0 (i : S256x32.Idx) (q : dot_S256x512_S512x32_S256x32_1_0_0_1_n_n.contr.Idx) :
    (dot_S256x512_S512x32_S256x32_1_0_0_1_n_n.rhsIdx i q 0).val = (q ⟨0, by decide⟩).val :=
  dot_S256x512_S512x32_S256x32_1_0_0_1_n_n.rhsIdx_val_of_single rfl i q
theorem rhs_head_1 (i : S256x32.Idx) (q : dot_S256x512_S512x32_S256x32_1_0_0_1_n_n.contr.Idx) :
    (dot_S256x512_S512x32_S256x32_1_0_0_1_n_n.rhsIdx i q 1).val = (i 1).val := by
  unfold DotDims.rhsIdx
  rw [dif_neg (show ¬(1 : Fin S512x32.rank) ∈ dot_S256x512_S512x32_S256x32_1_0_0_1_n_n.rhsBatch by decide), dif_pos (show (1 : Fin S512x32.rank) ∈ dot_S256x512_S512x32_S256x32_1_0_0_1_n_n.rhsNonContracting by decide)]
  rfl

/-- Entry (p, a) of an action head's product is the sum over the 512 hidden features. -/
theorem head_apply (x : FVec Ideal S256x512 .bf16) (w : FVec Ideal S512x32 .bf16) (p : Fin 256) (j : Fin 32) :
    matmul dot_S256x512_S512x32_S256x32_1_0_0_1_n_n none x w (constant S256x32 .f32 0x00000000#32) (ix2 p j)
      = ∑ k : Fin 512, x (ix2 p k) * w (ix2 k j) := by
  simp only [matmul]
  rw [Ideal.matmul_constant_zero_apply, ← Equiv.sum_comp (ValueIdx.contrEquiv1 dot_S256x512_S512x32_S256x32_1_0_0_1_n_n 512 rfl rfl).symm]
  refine Finset.sum_congr rfl fun k _ => ?_
  have hk := ValueIdx.contrEquiv1_symm_val dot_S256x512_S512x32_S256x32_1_0_0_1_n_n 512 rfl rfl k
  have el : dot_S256x512_S512x32_S256x32_1_0_0_1_n_n.lhsIdx (ix2 p j) ((ValueIdx.contrEquiv1 dot_S256x512_S512x32_S256x32_1_0_0_1_n_n 512 rfl rfl).symm k) = ix2 p k := funext fun a => Fin.ext (by
    match a with
    | ⟨0, _⟩ => exact lhs_head_0 _ _
    | ⟨1, _⟩ => exact (lhs_head_1 _ _).trans hk)
  have er : dot_S256x512_S512x32_S256x32_1_0_0_1_n_n.rhsIdx (ix2 p j) ((ValueIdx.contrEquiv1 dot_S256x512_S512x32_S256x32_1_0_0_1_n_n 512 rfl rfl).symm k) = ix2 k j := funext fun a => Fin.ext (by
    match a with
    | ⟨0, _⟩ => exact (rhs_head_0 _ _).trans hk
    | ⟨1, _⟩ => exact rhs_head_1 _ _)
  rw [el, er]

end Cert.KernelIdeal.Dots

end
-- ==== Proof.RowSpec.lean ====
/-
  One batch row of the recurrent agent's forward pass, on the extended reals.

  Every step of the network acts on a single batch row: a linear layer reads the row against a weight
  matrix stored [out, in], the gates combine entries of the same row, and the two action heads read the
  new hidden row. So the whole computation is described by functions of ONE row; the kernel applies them
  to the rows of a 256-row block, the reference to the rows of the whole batch.
-/
import Idealize.ShloMosaic.PureOps.Ideal
import Idealize.ShloMosaic.PureOps.Ideal.Laws
import Idealize.ShloMosaic.Lib.ValueIdx
import Idealize.ShloMosaic.Lib.ValueLayout

noncomputable section

namespace Cert.RowSpec

open Idealize.ShloMosaic Idealize.ShloMosaic.ValueIdx

/-- A matrix of extended reals, read at a row and a column. -/
abbrev Mat (a b : Nat) := (⟨2, ![a, b]⟩ : Shape).Idx → EReal
/-- A vector of extended reals. -/
abbrev Vc (a : Nat) := (⟨1, ![a]⟩ : Shape).Idx → EReal

/-- The word of the float `1.0` denotes the real one. -/
theorem ofBits_one : Ideal.ofBits .f32 0x3F800000#32 = 1 := by
  simp [Ideal.ofBits, Ideal.ieee, -EReal.coe_mul]; norm_num

/-- A linear layer on one row: entry `j` of `x · Wᵀ + b`, the weight stored as [out, in]. -/
def lin {K J : Nat} (x : Fin K → EReal) (W : Mat J K) (b : Vc J) (j : Fin J) : EReal :=
  (∑ k : Fin K, x k * W (ix2 j k)) + b (ix1 j)

/-- The first layer followed by the rectifier (the maximum with the zero word). -/
def fcRow (x : Fin 256 → EReal) (W1 : Mat 512 256) (b1 : Vc 512) (j : Fin 512) : EReal :=
  max (lin x W1 b1 j) (Ideal.ofBits .f32 0x00000000#32)

/-- The new hidden row from the two gate pre-activations `gi`, `gh` (three stacked groups of 512:
    reset, update, candidate) and the old hidden row:
    `r = σ(gi_r + gh_r)`, `z = σ(gi_z + gh_z)`, `n = tanh(gi_n + r · gh_n)`, `h' = (1 - z) · n + z · h`. -/
def gru (gi gh : Fin 1536 → EReal) (h : Fin 512 → EReal) (j : Fin 512) : EReal :=
  (Ideal.ofBits .f32 0x3F800000#32
      - Ideal.logistic (gi ⟨j.val + 512, by omega⟩ + gh ⟨j.val + 512, by omega⟩))
    * Ideal.tanh (gi ⟨j.val + 1024, by omega⟩
        + Ideal.logistic (gi ⟨j.val, by omega⟩ + gh ⟨j.val, by omega⟩) * gh ⟨j.val + 1024, by omega⟩)
  + Ideal.logistic (gi ⟨j.val + 512, by omega⟩ + gh ⟨j.val + 512, by omega⟩) * h j

/-- The new hidden row of one batch row `x`, `h`. -/
def hidRow (x : Fin 256 → EReal) (h : Fin 512 → EReal) (W1 : Mat 512 256) (b1 : Vc 512)
    (Wih Whh : Mat 1536 512) (bih bhh : Vc 1536) (j : Fin 512) : EReal :=
  gru (lin (fcRow x W1 b1) Wih bih) (lin h Whh bhh) h j

/-- One action head on the new hidden row. -/
def headRow (x : Fin 256 → EReal) (h : Fin 512 → EReal) (W1 : Mat 512 256) (b1 : Vc 512)
    (Wih Whh : Mat 1536 512) (bih bhh : Vc 1536) (W2 : Mat 32 512) (b2 : Vc 32) (a : Fin 32) : EReal :=
  lin (hidRow x h W1 b1 Wih Whh bih bhh) W2 b2 a

/-! ## Two layout readings used on every bias -/

/-- A bias vector laid out as one row and repeated over `a` rows reads, at `(p, c)`, the bias at `c`. -/
theorem rowBias_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

end Cert.RowSpec

end
-- ==== Proof.LibInterleave.lean ====
/-
  Interleaving the rows of two matrices, read at an entry.

  Two [a, b] matrices are each given a unit middle axis ([a, 1, b]), joined along that axis ([a, 2, b]) and
  flattened to [2a, b]. Row-major order puts row `2p + s` of the result at `(p, s)` of the joined array, so
  the result's rows alternate: row `2p` is row `p` of the first matrix, row `2p + 1` row `p` of the second.
  The lemmas are generic in the extents.
-/
import Idealize.ShloMosaic.Lib.Pipeline.Value
import Idealize.ShloMosaic.Lib.ValueIdx

namespace Cert.LibInterleave

open Idealize.ShloMosaic Idealize.ShloMosaic.ValueIdx

variable {α : Type}

/-- An [a, b] array cast to [a, 1, b] reads, at `(p, u, c)`, the operand at `(p, c)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (c : Fin b) :
    shapeCast ⟨3, ![a, 1, b]⟩ x h (ix3 p u c) = x (ix2 p c) :=
  shapeCast_apply x h _ _ (by
    have hu : u.val = 0 := by omega
    rw [Shape.rowMajor_val_two, Shape.rowMajor_val_three]
    show p.val * b + c.val = (p.val * 1 + u.val) * b + c.val
    rw [hu, Nat.mul_one, Nat.add_zero])

/-- Two [a, 1, b] arrays joined along the middle axis read, at `(p, s, c)`, the first at `(p, 0, c)` when
    `s = 0` and the second there when `s = 1`. -/
theorem stack2_apply {a b : ℕ} (y₁ y₂ : (⟨3, ![a, 1, b]⟩ : Shape).Idx → α)
    (hc : Shape.Concatenates [(⟨3, ![a, 1, b]⟩ : Shape), ⟨3, ![a, 1, b]⟩] ⟨3, ![a, 2, b]⟩ 1)
    (p : Fin a) (s : Fin 2) (c : Fin b) :
    concatenate ⟨3, ![a, 2, b]⟩ 1 [⟨⟨3, ![a, 1, b]⟩, y₁⟩, ⟨⟨3, ![a, 1, b]⟩, y₂⟩] hc (ix3 p s c)
      = if s.val = 0 then y₁ (ix3 p 0 c) else y₂ (ix3 p 0 c) := by
  by_cases hs : s.val = 0
  · rw [if_pos hs]
    refine concatenate_pair_apply_left 1 y₁ y₂ hc (ix3 p s c) rfl (ix3 p 0 c) fun d => ?_
    match d with
    | ⟨0, _⟩ => rfl
    | ⟨1, _⟩ => exact hs.symm
    | ⟨2, _⟩ => rfl
  · rw [if_neg hs]
    have hs1 : s.val = 1 := by have := s.isLt; omega
    refine concatenate_pair_apply_right 1 y₁ y₂ hc (ix3 p s c) rfl rfl (ix3 p 0 c) (fun d hd => ?_) ?_
    · match d with
      | ⟨0, _⟩ => rfl
      | ⟨1, _⟩ => exact absurd rfl hd
      | ⟨2, _⟩ => rfl
    · show 0 + 1 = s.val
      omega

/-- An [a, 2, b] array flattened to [m, b] reads, at row `2p + s`, the operand at `(p, s)`. -/
theorem shapeCast_a2b_mb_apply {a m b : ℕ} (z : (⟨3, ![a, 2, b]⟩ : Shape).Idx → α)
    (h : (⟨3, ![a, 2, b]⟩ : Shape).ShapeCasts ⟨2, ![m, b]⟩) (p : Fin a) (s : Fin 2) (c : Fin b) (r : Fin m)
    (hr : r.val = 2 * p.val + s.val) :
    shapeCast ⟨2, ![m, b]⟩ z h (ix2 r c) = z (ix3 p s c) :=
  shapeCast_apply z h _ _ (by
    rw [Shape.rowMajor_val_three, Shape.rowMajor_val_two]
    show (p.val * 2 + s.val) * b + c.val = r.val * b + c.val
    rw [hr, Nat.mul_comm 2 p.val])

/-- The three steps together: row `2p + s` of the interleaved matrix is row `p` of the first matrix when
    `s = 0` and of the second when `s = 1`. -/
theorem interleave_apply {a m b : ℕ} (x₁ x₂ : (⟨2, ![a, b]⟩ : Shape).Idx → α)
    (h1 : (⟨2, ![a, b]⟩ : Shape).ShapeCasts ⟨3, ![a, 1, b]⟩)
    (hc : Shape.Concatenates [(⟨3, ![a, 1, b]⟩ : Shape), ⟨3, ![a, 1, b]⟩] ⟨3, ![a, 2, b]⟩ 1)
    (h2 : (⟨3, ![a, 2, b]⟩ : Shape).ShapeCasts ⟨2, ![m, b]⟩)
    (p : Fin a) (s : Fin 2) (c : Fin b) (r : Fin m) (hr : r.val = 2 * p.val + s.val) :
    shapeCast ⟨2, ![m, b]⟩
        (concatenate ⟨3, ![a, 2, b]⟩ 1
          [⟨⟨3, ![a, 1, b]⟩, shapeCast ⟨3, ![a, 1, b]⟩ x₁ h1⟩, ⟨⟨3, ![a, 1, b]⟩, shapeCast ⟨3, ![a, 1, b]⟩ x₂ h1⟩] hc)
        h2 (ix2 r c)
      = if s.val = 0 then x₁ (ix2 p c) else x₂ (ix2 p c) := by
  rw [shapeCast_a2b_mb_apply _ h2 p s c r hr, stack2_apply _ _ hc p s c,
    shapeCast_ab_a1b_apply x₁ h1 p 0 c, shapeCast_ab_a1b_apply x₂ h1 p 0 c]

end Cert.LibInterleave
-- ==== Proof.KernelRows.lean ====
/-
  What the kernel's body computes, read at one entry of a block.

  The body's arithmetic is a few pure terms of the blocks it loads. Read at row `p` of the block, each of them
  depends only on row `p` of the two batch blocks (the inputs and the old hidden state) and on the weights:
  the gate pre-activations are linear layers of that row, the new hidden row is the gated combination of them,
  and the stored action values are the two heads of the new hidden row, interleaved row by row.
-/
import proofs.«159720_j18193481466268_1_alg».proof.Proof.Gen.KernelIdeal.Skeleton
import proofs.«159720_j18193481466268_1_alg».proof.Proof.KernelDots
import proofs.«159720_j18193481466268_1_alg».proof.Proof.RowSpec
import proofs.«159720_j18193481466268_1_alg».proof.Proof.LibInterleave
import Idealize.ShloMosaic.Lib.ValueIdx
import Idealize.ShloMosaic.Lib.ValueLayout

noncomputable section

namespace Cert.KernelIdeal.Rows

open Cert.KernelIdeal Cert.KernelIdeal.Gen Cert.KernelIdeal.Dots Cert.RowSpec Cert.LibInterleave
open Idealize.ShloMosaic Idealize.ShloMosaic.ValueIdx

/-! ## The three weight transposes: entry `(k, j)` of the transposed weight is entry `(j, k)` of the weight -/

theorem tr_first (w : FVec Ideal S512x256 .bf16) (k : Fin 256) (j : Fin 512) :
    transpose S256x512 [1, 0] w transposes_S512x256_p1_0_S256x512 (ix2 k j) = w (ix2 j k) :=
  transpose_ix2_apply _ _ k j

theorem tr_gate (w : FVec Ideal S1536x512 .bf16) (k : Fin 512) (j : Fin 1536) :
    transpose S512x1536 [1, 0] w transposes_S1536x512_p1_0_S512x1536 (ix2 k j) = w (ix2 j k) :=
  transpose_ix2_apply _ _ k j

theorem tr_head (w : FVec Ideal S32x512 .bf16) (k : Fin 512) (j : Fin 32) :
    transpose S512x32 [1, 0] w transposes_S32x512_p1_0_S512x32 (ix2 k j) = w (ix2 j k) :=
  transpose_ix2_apply _ _ k j

/-! ## Each product against a transposed weight, stored [out, in]: entry `(p, j)` sums left `(p, k)` times weight `(j, k)` -/

theorem fcT_apply (a : FVec Ideal S256x256 .bf16) (w : FVec Ideal S512x256 .bf16) (p : Fin 256) (j : Fin 512) :
    matmul dot_S256x256_S256x512_S256x512_1_0_0_1_n_n none a (transpose S256x512 [1, 0] w transposes_S512x256_p1_0_S256x512)
        (constant S256x512 .f32 0x00000000#32) (ix2 p j)
      = ∑ k : Fin 256, a (ix2 p k) * w (ix2 j k) := by
  rw [fc_apply]
  exact Finset.sum_congr rfl fun k _ => by rw [tr_first]

theorem gateT_apply (a : FVec Ideal S256x512 .bf16) (w : FVec Ideal S1536x512 .bf16) (p : Fin 256) (j : Fin 1536) :
    matmul dot_S256x512_S512x1536_S256x1536_1_0_0_1_n_n none a (transpose S512x1536 [1, 0] w transposes_S1536x512_p1_0_S512x1536)
        (constant S256x1536 .f32 0x00000000#32) (ix2 p j)
      = ∑ k : Fin 512, a (ix2 p k) * w (ix2 j k) := by
  rw [gate_apply]
  exact Finset.sum_congr rfl fun k _ => by rw [tr_gate]

theorem headT_apply (x : FVec Ideal S256x512 .bf16) (w : FVec Ideal S32x512 .bf16) (p : Fin 256) (j : Fin 32) :
    matmul dot_S256x512_S512x32_S256x32_1_0_0_1_n_n none x (transpose S512x32 [1, 0] w transposes_S32x512_p1_0_S512x32)
        (constant S256x32 .f32 0x00000000#32) (ix2 p j)
      = ∑ k : Fin 512, x (ix2 p k) * w (ix2 j k) := by
  rw [head_apply]
  exact Finset.sum_congr rfl fun k _ => by rw [tr_head]

/-! ## The first layer and the gate pre-activations -/

/-- The rectified first layer at `(p, k)`, for any left operand and weight: row `p` through the layer. -/
theorem fc_row_apply (a : FVec Ideal S256x256 .bf16) (w : FVec Ideal S512x256 .bf16) (b : Vec Ideal S512 .f32)
    (p : Fin 256) (k : Fin 512) :
    maximumf (addf (matmul dot_S256x256_S256x512_S256x512_1_0_0_1_n_n none a (transpose S256x512 [1, 0] w transposes_S512x256_p1_0_S256x512)
          (constant S256x512 .f32 0x00000000#32))
        (broadcastTo S256x512 (shapeCast S1x512 b shapeCasts_S512_S1x512) broadcasts_S1x512_S256x512))
      (broadcast S256x512 (Scalar.ofBits .f32 0x00000000#32)) (ix2 p k)
    = fcRow (fun k' => a (ix2 p k')) w b k := by
  show max (_ + _) _ = _
  rw [fcT_apply, rowBias_apply]
  rfl

/-- The input path's gate pre-activation at `(p, j)`: the gate layer applied to the rectified first layer of
    row `p` of the input block. -/
theorem gi_apply (v0 : Vec Ideal S256x256 .f32) (v2 : Vec Ideal S512x256 .f32) (v6 : Vec Ideal S512 .f32)
    (v15 : Vec Ideal S1536x512 .f32) (v21 : Vec Ideal S1536 .f32) (p : Fin 256) (j : Fin 1536) :
    k0_pay3 v0 v2 v6 v15 v21 (ix2 p j) = lin (fcRow (fun k => v0 (ix2 p k)) v2 v6) v15 v21 j := by
  unfold k0_pay3
  show _ + _ = _
  rw [gateT_apply, rowBias_apply]
  refine congrArg₂ (· + ·) (Finset.sum_congr rfl fun k _ => congrArg₂ (· * ·) ?_ rfl) rfl
  exact fc_row_apply _ _ v6 p k

/-- The hidden path's gate pre-activation at `(p, j)`: the gate layer applied to row `p` of the old hidden block. -/
theorem gh_apply (v13 : Vec Ideal S256x512 .f32) (v17 : Vec Ideal S1536x512 .f32) (v27 : Vec Ideal S1536 .f32)
    (p : Fin 256) (j : Fin 1536) :
    k0_pay4 v13 v17 v27 (ix2 p j) = lin (fun k => v13 (ix2 p k)) v17 v27 j := by
  unfold k0_pay4
  show _ + _ = _
  rw [gateT_apply, rowBias_apply]
  rfl

/-! ## The three gate groups: columns `j`, `j + 512`, `j + 1024` of a [256, 1536] pre-activation -/

theorem grp0_apply (X : FVec Ideal S256x1536 .f32) (p : Fin 256) (j : Fin 512) :
    extractStridedSlice S256x512 ![0, 0] X slices_S256x1536_o0_0_S256x512 (ix2 p j) = X (ix2 p ⟨j.val, by omega⟩) :=
  slice2_axis1_apply 0 X _ p j _ (Nat.zero_add _).symm

theorem grp1_apply (X : FVec Ideal S256x1536 .f32) (p : Fin 256) (j : Fin 512) :
    extractStridedSlice S256x512 ![0, 512] X slices_S256x1536_o0_512_S256x512 (ix2 p j) = X (ix2 p ⟨j.val + 512, by omega⟩) :=
  slice2_axis1_apply 512 X _ p j _ (Nat.add_comm _ _)

theorem grp2_apply (X : FVec Ideal S256x1536 .f32) (p : Fin 256) (j : Fin 512) :
    extractStridedSlice S256x512 ![0, 1024] X slices_S256x1536_o0_1024_S256x512 (ix2 p j) = X (ix2 p ⟨j.val + 1024, by omega⟩) :=
  slice2_axis1_apply 1024 X _ p j _ (Nat.add_comm _ _)

/-! ## The new hidden state -/

/-- The stored hidden block at `(p, j)` is the new hidden row of row `p` of the two batch blocks. -/
theorem hid_apply (v0 : Vec Ideal S256x256 .f32) (v2 : Vec Ideal S512x256 .f32) (v6 : Vec Ideal S512 .f32)
    (v13 : Vec Ideal S256x512 .f32) (v15 v17 : Vec Ideal S1536x512 .f32) (v21 v27 : Vec Ideal S1536 .f32)
    (p : Fin 256) (j : Fin 512) :
    k0_pay1 v13 (k0_pay5 v0 v2 v6 v15 v21) (k0_pay6 v0 v2 v6 v13 v15 v17 v21 v27)
        (k0_pay7 v0 v2 v6 v13 v15 v17 v21 v27) (ix2 p j)
      = hidRow (fun k => v0 (ix2 p k)) (fun k => v13 (ix2 p k)) v2 v6 v15 v17 v21 v27 j := by
  unfold k0_pay1 k0_pay5 k0_pay6 k0_pay7
  dsimp only
  show (_ - Ideal.logistic (_ + _)) * Ideal.tanh (_ + Ideal.logistic (_ + _) * _) + Ideal.logistic (_ + _) * _ = _
  rw [grp1_apply, grp1_apply, grp2_apply, grp2_apply, grp0_apply, grp0_apply]
  simp only [gi_apply, gh_apply]
  rfl

/-! ## The action values -/

/-- One action head on the stored hidden block at `(p, a)`, for any head weight and bias. -/
theorem head_row_apply (v0 : Vec Ideal S256x256 .f32) (v2 : Vec Ideal S512x256 .f32) (v6 : Vec Ideal S512 .f32)
    (v13 : Vec Ideal S256x512 .f32) (v15 v17 : Vec Ideal S1536x512 .f32) (v21 v27 : Vec Ideal S1536 .f32)
    (w : Vec Ideal S32x512 .f32) (b : Vec Ideal S32 .f32) (p : Fin 256) (a : Fin 32) :
    addf (matmul dot_S256x512_S512x32_S256x32_1_0_0_1_n_n none
          (truncf .bf16 (k0_pay1 v13 (k0_pay5 v0 v2 v6 v15 v21) (k0_pay6 v0 v2 v6 v13 v15 v17 v21 v27) (k0_pay7 v0 v2 v6 v13 v15 v17 v21 v27)) bitsLt_bf16_f32)
          (transpose S512x32 [1, 0] (truncf .bf16 w bitsLt_bf16_f32) transposes_S32x512_p1_0_S512x32)
          (constant S256x32 .f32 0x00000000#32))
        (broadcastTo S256x32 (shapeCast S1x32 b shapeCasts_S32_S1x32) broadcasts_S1x32_S256x32) (ix2 p a)
      = headRow (fun k => v0 (ix2 p k)) (fun k => v13 (ix2 p k)) v2 v6 v15 v17 v21 v27 w b a := by
  show _ + _ = _
  rw [headT_apply, rowBias_apply]
  refine congrArg₂ (· + ·) (Finset.sum_congr rfl fun k _ => congrArg₂ (· * ·) ?_ rfl) rfl
  exact hid_apply v0 v2 v6 v13 v15 v17 v21 v27 p k

/-- The stored action-value block at row `2p + s`: the first head of row `p` when `s = 0`, the second when `s = 1`. -/
theorem q_apply (v0 : Vec Ideal S256x256 .f32) (v2 : Vec Ideal S512x256 .f32) (v6 : Vec Ideal S512 .f32)
    (v13 : Vec Ideal S256x512 .f32) (v15 v17 : Vec Ideal S1536x512 .f32) (v21 v27 : Vec Ideal S1536 .f32)
    (v51 v53 : Vec Ideal S32x512 .f32) (v57 v63 : Vec Ideal S32 .f32)
    (p : Fin 256) (s : Fin 2) (a : Fin 32) (r : Fin 512) (hr : r.val = 2 * p.val + s.val) :
    k0_pay2 v13 (k0_pay5 v0 v2 v6 v15 v21) (k0_pay6 v0 v2 v6 v13 v15 v17 v21 v27) (k0_pay7 v0 v2 v6 v13 v15 v17 v21 v27) v51 v53 v57 v63 (ix2 r a)
      = if s.val = 0 then headRow (fun k => v0 (ix2 p k)) (fun k => v13 (ix2 p k)) v2 v6 v15 v17 v21 v27 v51 v57 a
        else headRow (fun k => v0 (ix2 p k)) (fun k => v13 (ix2 p k)) v2 v6 v15 v17 v21 v27 v53 v63 a := by
  unfold k0_pay2
  dsimp only
  refine (interleave_apply _ _ shapeCasts_S256x32_S256x1x32 concatenates_S256x1x32_S256x1x32_S256x2x32_d1
    shapeCasts_S256x2x32_S512x32 p s a r hr).trans ?_
  exact if_congr Iff.rfl (head_row_apply v0 v2 v6 v13 v15 v17 v21 v27 v51 v57 p a)
    (head_row_apply v0 v2 v6 v13 v15 v17 v21 v27 v53 v63 p a)

end Cert.KernelIdeal.Rows

end
-- ==== Proof.BatchSpec.lean ====
/-
  The two results over the whole batch.

  The new hidden state is the new hidden row of every batch row. The action values have twice as many rows:
  row `2b` holds the first head of batch row `b` and row `2b + 1` the second.
-/
import proofs.«159720_j18193481466268_1_alg».proof.Proof.RowSpec

noncomputable section

namespace Cert.RowSpec

open Idealize.ShloMosaic Idealize.ShloMosaic.ValueIdx

/-- The new hidden state of the whole batch, entry by entry. -/
def hidAll (X : Mat 65536 256) (H : Mat 65536 512) (W1 : Mat 512 256) (b1 : Vc 512)
    (Wih Whh : Mat 1536 512) (bih bhh : Vc 1536) : Mat 65536 512 :=
  fun i => hidRow (fun k => X (ix2 (i 0) k)) (fun k => H (ix2 (i 0) k)) W1 b1 Wih Whh bih bhh (i 1)

theorem hidAll_apply (X : Mat 65536 256) (H : Mat 65536 512) (W1 : Mat 512 256) (b1 : Vc 512)
    (Wih Whh : Mat 1536 512) (bih bhh : Vc 1536) (b : Fin 65536) (j : Fin 512) :
    hidAll X H W1 b1 Wih Whh bih bhh (ix2 b j)
      = hidRow (fun k => X (ix2 b k)) (fun k => H (ix2 b k)) W1 b1 Wih Whh bih bhh j := rfl

/-- The action values of the whole batch, the two heads' rows interleaved. -/
def qAll (X : Mat 65536 256) (H : Mat 65536 512) (W1 : Mat 512 256) (b1 : Vc 512)
    (Wih Whh : Mat 1536 512) (bih bhh : Vc 1536) (W21 : Mat 32 512) (b21 : Vc 32) (W22 : Mat 32 512) (b22 : Vc 32) :
    Mat 131072 32 :=
  fun i =>
    if (i 0).val % 2 = 0 then
      headRow (fun k => X (ix2 (⟨(i 0).val / 2, by have h : (i 0).val < 131072 := (i 0).isLt; omega⟩ : Fin 65536) k))
        (fun k => H (ix2 (⟨(i 0).val / 2, by have h : (i 0).val < 131072 := (i 0).isLt; omega⟩ : Fin 65536) k))
        W1 b1 Wih Whh bih bhh W21 b21 (i 1)
    else
      headRow (fun k => X (ix2 (⟨(i 0).val / 2, by have h : (i 0).val < 131072 := (i 0).isLt; omega⟩ : Fin 65536) k))
        (fun k => H (ix2 (⟨(i 0).val / 2, by have h : (i 0).val < 131072 := (i 0).isLt; omega⟩ : Fin 65536) k))
        W1 b1 Wih Whh bih bhh W22 b22 (i 1)

theorem qAll_apply (X : Mat 65536 256) (H : Mat 65536 512) (W1 : Mat 512 256) (b1 : Vc 512)
    (Wih Whh : Mat 1536 512) (bih bhh : Vc 1536) (W21 : Mat 32 512) (b21 : Vc 32) (W22 : Mat 32 512) (b22 : Vc 32)
    (b : Fin 65536) (s : Fin 2) (a : Fin 32) (r : Fin 131072) (hr : r.val = 2 * b.val + s.val) :
    qAll X H W1 b1 Wih Whh bih bhh W21 b21 W22 b22 (ix2 r a)
      = if s.val = 0 then headRow (fun k => X (ix2 b k)) (fun k => H (ix2 b k)) W1 b1 Wih Whh bih bhh W21 b21 a
        else headRow (fun k => X (ix2 b k)) (fun k => H (ix2 b k)) W1 b1 Wih Whh bih bhh W22 b22 a := by
  have hs := s.isLt
  have h2 : r.val % 2 = s.val := by omega
  have e : (⟨r.val / 2, by have := r.isLt; omega⟩ : Fin 65536) = b := Fin.ext (by show r.val / 2 = b.val; omega)
  unfold qAll
  show (if r.val % 2 = 0 then
      headRow (fun k => X (ix2 (⟨r.val / 2, _⟩ : Fin 65536) k)) (fun k => H (ix2 (⟨r.val / 2, _⟩ : Fin 65536) k))
        W1 b1 Wih Whh bih bhh W21 b21 a
    else
      headRow (fun k => X (ix2 (⟨r.val / 2, _⟩ : Fin 65536) k)) (fun k => H (ix2 (⟨r.val / 2, _⟩ : Fin 65536) k))
        W1 b1 Wih Whh bih bhh W22 b22 a) = _
  rw [e, h2]

end Cert.RowSpec

end
-- ==== Proof.KernelArrays.lean ====
/-
  From blocks to arrays on the kernel's side.

  The grid has 256 points; point `t` stages rows `256 t … 256 t + 255` of the inputs and of the old hidden
  state and the whole of every weight and bias, and writes back rows `256 t …` of the new hidden state and
  rows `512 t …` of the action values. Since every entry the body stores depends only on one row of the two
  batch blocks, what point `t` writes back is block `t` of the whole-batch result, and the 256 blocks tile
  each result array: after the run each result array is the whole-batch function of the argument arrays.
-/
import proofs.«159720_j18193481466268_1_alg».proof.Proof.Gen.KernelIdeal.Value
import proofs.«159720_j18193481466268_1_alg».proof.Proof.KernelRows
import proofs.«159720_j18193481466268_1_alg».proof.Proof.BatchSpec
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Value Cert.KernelIdeal.Rows Cert.RowSpec
open Idealize.ShloMosaic.ValueIdx

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The argument arrays, as matrices and vectors of extended reals -/

abbrev aX (c : Dev nD) : Mat 65536 256 := m ((c : Thread nD τ).loc main_arg0)
abbrev aH (c : Dev nD) : Mat 65536 512 := m ((c : Thread nD τ).loc main_arg1)
abbrev aW1 (c : Dev nD) : Mat 512 256 := m ((c : Thread nD τ).loc main_arg2)
abbrev aB1 (c : Dev nD) : Vc 512 := m ((c : Thread nD τ).loc main_arg3)
abbrev aWih (c : Dev nD) : Mat 1536 512 := m ((c : Thread nD τ).loc main_arg4)
abbrev aWhh (c : Dev nD) : Mat 1536 512 := m ((c : Thread nD τ).loc main_arg5)
abbrev aBih (c : Dev nD) : Vc 1536 := m ((c : Thread nD τ).loc main_arg6)
abbrev aBhh (c : Dev nD) : Vc 1536 := m ((c : Thread nD τ).loc main_arg7)
abbrev aW21 (c : Dev nD) : Mat 32 512 := m ((c : Thread nD τ).loc main_arg8)
abbrev aB21 (c : Dev nD) : Vc 32 := m ((c : Thread nD τ).loc main_arg9)
abbrev aW22 (c : Dev nD) : Mat 32 512 := m ((c : Thread nD τ).loc main_arg10)
abbrev aB22 (c : Dev nD) : Vc 32 := m ((c : Thread nD τ).loc main_arg11)

/-! ## The index maps, decided over the 256 points -/

/-- The four batch windows sit at block `t` along the rows and block 0 along the columns. -/
theorem idx_batch : ∀ t : Fin cfg0.N,
    win0_0.index t (0 : Fin 2) = t.val ∧ win0_0.index t (1 : Fin 2) = 0
    ∧ win0_1.index t (0 : Fin 2) = t.val ∧ win0_1.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- Every weight and bias window sits at block 0 at every point. -/
theorem idx_weights : ∀ t : Fin cfg0.N,
    win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = 0 ∧ win0_10.index t (1 : Fin 2) = 0
    ∧ win0_11.index t (0 : Fin 1) = 0 :=
  (by decide +kernel : ∀ t : Fin grid0.N, _)

/-! ## The input blocks as rows of the argument arrays -/

/-- Row `p` of the input block at point `t` is row `256 t + p` of the inputs. -/
theorem xblk_apply (c : Dev nD) (t : Fin cfg0.N) (p : Fin 256) (k : Fin 256) (b : Fin 65536)
    (hb : b.val = 256 * t.val + p.val) :
    (iblk m c 0 t : Vec Ideal S256x256 .f32) (ix2 p k) = aX m c (ix2 b k) := by
  obtain ⟨h0, h1, -⟩ := idx_batch t
  unfold iblk
  rw [View.read_apply]
  show V m c main_arg0 _ = m ((c : Thread nD τ).loc main_arg0) _
  unfold V
  congr 1
  funext a
  apply Fin.ext
  match a with
  | ⟨0, _⟩ => show win0_0.index t 0 * 256 + 1 * p.val = b.val; rw [h0, hb]; omega
  | ⟨1, _⟩ => show win0_0.index t 1 * 256 + 1 * k.val = k.val; rw [h1]; omega

/-- Row `p` of the old hidden block at point `t` is row `256 t + p` of the old hidden state. -/
theorem hblk_apply (c : Dev nD) (t : Fin cfg0.N) (p : Fin 256) (k : Fin 512) (b : Fin 65536)
    (hb : b.val = 256 * t.val + p.val) :
    (iblk m c 1 t : Vec Ideal S256x512 .f32) (ix2 p k) = aH m c (ix2 b k) := by
  obtain ⟨-, -, h0, h1, -⟩ := idx_batch t
  unfold iblk
  rw [View.read_apply]
  show V m c main_arg1 _ = m ((c : Thread nD τ).loc main_arg1) _
  unfold V
  congr 1
  funext a
  apply Fin.ext
  match a with
  | ⟨0, _⟩ => show win0_1.index t 0 * 256 + 1 * p.val = b.val; rw [h0, hb]; omega
  | ⟨1, _⟩ => show win0_1.index t 1 * 512 + 1 * k.val = k.val; rw [h1]; omega

/-! ## Each weight and bias block is the whole array, at every point -/

/-- The first layer's weight block is the whole weight. -/
theorem w1blk_eq (c : Dev nD) (t : Fin cfg0.N) : (iblk m c 2 t : Vec Ideal S512x256 .f32) = aW1 m c := by
  obtain ⟨w2a, w2b, w3, w4a, w4b, w5a, w5b, w6, w7, w8a, w8b, w9, w10a, w10b, w11⟩ := idx_weights t
  funext y
  unfold iblk
  rw [View.read_apply]
  show V m c main_arg2 _ = m ((c : Thread nD τ).loc main_arg2) _
  unfold V
  congr 1
  funext d
  apply Fin.ext
  match d with
  | ⟨0, _⟩ => show win0_2.index t 0 * 512 + 1 * (y 0).val = (y 0).val; rw [w2a]; omega
  | ⟨1, _⟩ => show win0_2.index t 1 * 256 + 1 * (y 1).val = (y 1).val; rw [w2b]; omega

/-- The first layer's bias block is the whole bias. -/
theorem b1blk_eq (c : Dev nD) (t : Fin cfg0.N) : (iblk m c 3 t : Vec Ideal S512 .f32) = aB1 m c := by
  obtain ⟨w2a, w2b, w3, w4a, w4b, w5a, w5b, w6, w7, w8a, w8b, w9, w10a, w10b, w11⟩ := idx_weights t
  funext y
  unfold iblk
  rw [View.read_apply]
  show V m c main_arg3 _ = m ((c : Thread nD τ).loc main_arg3) _
  unfold V
  congr 1
  funext d
  apply Fin.ext
  match d with
  | ⟨0, _⟩ => show win0_3.index t 0 * 512 + 1 * (y 0).val = (y 0).val; rw [w3]; omega

/-- The input path's gate weight block is the whole weight. -/
theorem wihblk_eq (c : Dev nD) (t : Fin cfg0.N) : (iblk m c 4 t : Vec Ideal S1536x512 .f32) = aWih m c := by
  obtain ⟨w2a, w2b, w3, w4a, w4b, w5a, w5b, w6, w7, w8a, w8b, w9, w10a, w10b, w11⟩ := idx_weights t
  funext y
  unfold iblk
  rw [View.read_apply]
  show V m c main_arg4 _ = m ((c : Thread nD τ).loc main_arg4) _
  unfold V
  congr 1
  funext d
  apply Fin.ext
  match d with
  | ⟨0, _⟩ => show win0_4.index t 0 * 1536 + 1 * (y 0).val = (y 0).val; rw [w4a]; omega
  | ⟨1, _⟩ => show win0_4.index t 1 * 512 + 1 * (y 1).val = (y 1).val; rw [w4b]; omega

/-- The hidden path's gate weight block is the whole weight. -/
theorem whhblk_eq (c : Dev nD) (t : Fin cfg0.N) : (iblk m c 5 t : Vec Ideal S1536x512 .f32) = aWhh m c := by
  obtain ⟨w2a, w2b, w3, w4a, w4b, w5a, w5b, w6, w7, w8a, w8b, w9, w10a, w10b, w11⟩ := idx_weights t
  funext y
  unfold iblk
  rw [View.read_apply]
  show V m c main_arg5 _ = m ((c : Thread nD τ).loc main_arg5) _
  unfold V
  congr 1
  funext d
  apply Fin.ext
  match d with
  | ⟨0, _⟩ => show win0_5.index t 0 * 1536 + 1 * (y 0).val = (y 0).val; rw [w5a]; omega
  | ⟨1, _⟩ => show win0_5.index t 1 * 512 + 1 * (y 1).val = (y 1).val; rw [w5b]; omega

/-- The input path's gate bias block is the whole bias. -/
theorem bihblk_eq (c : Dev nD) (t : Fin cfg0.N) : (iblk m c 6 t : Vec Ideal S1536 .f32) = aBih m c := by
  obtain ⟨w2a, w2b, w3, w4a, w4b, w5a, w5b, w6, w7, w8a, w8b, w9, w10a, w10b, w11⟩ := idx_weights t
  funext y
  unfold iblk
  rw [View.read_apply]
  show V m c main_arg6 _ = m ((c : Thread nD τ).loc main_arg6) _
  unfold V
  congr 1
  funext d
  apply Fin.ext
  match d with
  | ⟨0, _⟩ => show win0_6.index t 0 * 1536 + 1 * (y 0).val = (y 0).val; rw [w6]; omega

/-- The hidden path's gate bias block is the whole bias. -/
theorem bhhblk_eq (c : Dev nD) (t : Fin cfg0.N) : (iblk m c 7 t : Vec Ideal S1536 .f32) = aBhh m c := by
  obtain ⟨w2a, w2b, w3, w4a, w4b, w5a, w5b, w6, w7, w8a, w8b, w9, w10a, w10b, w11⟩ := idx_weights t
  funext y
  unfold iblk
  rw [View.read_apply]
  show V m c main_arg7 _ = m ((c : Thread nD τ).loc main_arg7) _
  unfold V
  congr 1
  funext d
  apply Fin.ext
  match d with
  | ⟨0, _⟩ => show win0_7.index t 0 * 1536 + 1 * (y 0).val = (y 0).val; rw [w7]; omega

/-- The first head's weight block is the whole weight. -/
theorem w21blk_eq (c : Dev nD) (t : Fin cfg0.N) : (iblk m c 8 t : Vec Ideal S32x512 .f32) = aW21 m c := by
  obtain ⟨w2a, w2b, w3, w4a, w4b, w5a, w5b, w6, w7, w8a, w8b, w9, w10a, w10b, w11⟩ := idx_weights t
  funext y
  unfold iblk
  rw [View.read_apply]
  show V m c main_arg8 _ = m ((c : Thread nD τ).loc main_arg8) _
  unfold V
  congr 1
  funext d
  apply Fin.ext
  match d with
  | ⟨0, _⟩ => show win0_8.index t 0 * 32 + 1 * (y 0).val = (y 0).val; rw [w8a]; omega
  | ⟨1, _⟩ => show win0_8.index t 1 * 512 + 1 * (y 1).val = (y 1).val; rw [w8b]; omega

/-- The first head's bias block is the whole bias. -/
theorem b21blk_eq (c : Dev nD) (t : Fin cfg0.N) : (iblk m c 9 t : Vec Ideal S32 .f32) = aB21 m c := by
  obtain ⟨w2a, w2b, w3, w4a, w4b, w5a, w5b, w6, w7, w8a, w8b, w9, w10a, w10b, w11⟩ := idx_weights t
  funext y
  unfold iblk
  rw [View.read_apply]
  show V m c main_arg9 _ = m ((c : Thread nD τ).loc main_arg9) _
  unfold V
  congr 1
  funext d
  apply Fin.ext
  match d with
  | ⟨0, _⟩ => show win0_9.index t 0 * 32 + 1 * (y 0).val = (y 0).val; rw [w9]; omega

/-- The second head's weight block is the whole weight. -/
theorem w22blk_eq (c : Dev nD) (t : Fin cfg0.N) : (iblk m c 10 t : Vec Ideal S32x512 .f32) = aW22 m c := by
  obtain ⟨w2a, w2b, w3, w4a, w4b, w5a, w5b, w6, w7, w8a, w8b, w9, w10a, w10b, w11⟩ := idx_weights t
  funext y
  unfold iblk
  rw [View.read_apply]
  show V m c main_arg10 _ = m ((c : Thread nD τ).loc main_arg10) _
  unfold V
  congr 1
  funext d
  apply Fin.ext
  match d with
  | ⟨0, _⟩ => show win0_10.index t 0 * 32 + 1 * (y 0).val = (y 0).val; rw [w10a]; omega
  | ⟨1, _⟩ => show win0_10.index t 1 * 512 + 1 * (y 1).val = (y 1).val; rw [w10b]; omega

/-- The second head's bias block is the whole bias. -/
theorem b22blk_eq (c : Dev nD) (t : Fin cfg0.N) : (iblk m c 11 t : Vec Ideal S32 .f32) = aB22 m c := by
  obtain ⟨w2a, w2b, w3, w4a, w4b, w5a, w5b, w6, w7, w8a, w8b, w9, w10a, w10b, w11⟩ := idx_weights t
  funext y
  unfold iblk
  rw [View.read_apply]
  show V m c main_arg11 _ = m ((c : Thread nD τ).loc main_arg11) _
  unfold V
  congr 1
  funext d
  apply Fin.ext
  match d with
  | ⟨0, _⟩ => show win0_11.index t 0 * 32 + 1 * (y 0).val = (y 0).val; rw [w11]; omega

/-! ## The new hidden state: what each point writes back, and the array after the run -/

/-- What point `t` writes back to the new hidden state is block `t` of the whole-batch hidden state. -/
theorem flushed13_eq (c : Dev nD) (t : Fin cfg0.N) :
    (dats m 0 c).flushed 13 t = ((cfg0.win 13).blk t).view.read (Elt Ideal)
      (hidAll (aX m c) (aH m c) (aW1 m c) (aB1 m c) (aWih m c) (aWhh m c) (aBih m c) (aBhh m c)) := by
  obtain ⟨-, -, -, -, -, -, h0, h1⟩ := idx_batch t
  rw [Value.flushed13]
  unfold out0_13
  rw [View.canon_unit_zero hz2]
  simp only [View.ld_unit_zero (S := S256x256) hz2, View.ld_unit_zero (S := S512x256) hz2,
    View.ld_unit_zero (S := S512) hz1, View.ld_unit_zero (S := S256x512) hz2,
    View.ld_unit_zero (S := S1536x512) hz2, View.ld_unit_zero (S := S1536) hz1]
  funext y
  obtain ⟨p, j, rfl⟩ : ∃ (p : Fin 256) (j : Fin 512), y = ix2 p j := ⟨y 0, y 1, eq_ix2 y⟩
  have ht : t.val < 256 := Nat.lt_of_lt_of_eq t.isLt N_0
  have e : ((cfg0.win 13).blk t).view.emb (ix2 p j) = ix2 (⟨256 * t.val + p.val, by omega⟩ : Fin 65536) j := by
    funext a
    apply Fin.ext
    match a with
    | ⟨0, _⟩ => show win0_13.index t 0 * 256 + 1 * p.val = 256 * t.val + p.val; rw [h0]; omega
    | ⟨1, _⟩ => show win0_13.index t 1 * 512 + 1 * j.val = j.val; rw [h1]; omega
  refine (hid_apply (iblk m c 0 t) (iblk m c 2 t) (iblk m c 3 t) (iblk m c 1 t) (iblk m c 4 t) (iblk m c 5 t)
    (iblk m c 6 t) (iblk m c 7 t) p j).trans ?_
  rw [View.read_apply]
  show _ = hidAll (aX m c) (aH m c) (aW1 m c) (aB1 m c) (aWih m c) (aWhh m c) (aBih m c) (aBhh m c)
    (((cfg0.win 13).blk t).view.emb (ix2 p j))
  rw [e, hidAll_apply, w1blk_eq m c t, b1blk_eq m c t, wihblk_eq m c t, whhblk_eq m c t, bihblk_eq m c t, bhhblk_eq m c t]
  have ex : (fun k => (iblk m c 0 t : Vec Ideal S256x256 .f32) (ix2 p k))
      = fun k => aX m c (ix2 (⟨256 * t.val + p.val, by omega⟩ : Fin 65536) k) :=
    funext fun k => xblk_apply m c t p k _ rfl
  have eh : (fun k => (iblk m c 1 t : Vec Ideal S256x512 .f32) (ix2 p k))
      = fun k => aH m c (ix2 (⟨256 * t.val + p.val, by omega⟩ : Fin 65536) k) :=
    funext fun k => hblk_apply m c t p k _ rfl
  rw [ex, eh]

/-- An index of the new hidden state is in point `t`'s block iff each coordinate is in the block's range. -/
theorem mem_blk13 (t : Fin cfg0.N) (i : S65536x512.Idx) :
    i ∈ ((cfg0.win 13).blk t).view.set ↔ ∀ a : Fin 2, win0_13.index t a * S256x512.size a ≤ (i a).val
      ∧ (i a).val < win0_13.index t a * S256x512.size a + S256x512.size a := by
  show i ∈ ((View.whole main_v0_1).slice (win0_13.rect t)).set ↔ _
  rw [View.set_slice_whole, Rect.mem_set_unit]
  exact Iff.rfl

/-- Row `r` of the new hidden state lies in the block of point `r / 256`. -/
theorem cover13 (i : S65536x512.Idx) :
    ∃ t : Fin cfg0.N, (cfg0.win 13).flush t = true ∧ i ∈ ((cfg0.win 13).blk t).view.set := by
  have hi0 : (i 0).val < 65536 := (i 0).isLt
  have hi1 : (i 1).val < 512 := (i 1).isLt
  have hlt : (i 0).val / 256 < cfg0.N := Nat.lt_of_lt_of_eq (by omega : (i 0).val / 256 < 256) N_0.symm
  obtain ⟨-, -, -, -, -, -, h0, h1⟩ := idx_batch ⟨(i 0).val / 256, hlt⟩
  refine ⟨⟨(i 0).val / 256, hlt⟩, flush0_13 _, ?_⟩
  rw [mem_blk13]
  intro a
  match a with
  | ⟨0, _⟩ =>
    show win0_13.index ⟨(i 0).val / 256, hlt⟩ 0 * 256 ≤ (i 0).val
      ∧ (i 0).val < win0_13.index ⟨(i 0).val / 256, hlt⟩ 0 * 256 + 256
    rw [h0]
    show (i 0).val / 256 * 256 ≤ (i 0).val ∧ (i 0).val < (i 0).val / 256 * 256 + 256
    omega
  | ⟨1, _⟩ =>
    show win0_13.index ⟨(i 0).val / 256, hlt⟩ 1 * 512 ≤ (i 1).val
      ∧ (i 1).val < win0_13.index ⟨(i 0).val / 256, hlt⟩ 1 * 512 + 512
    rw [h1]
    omega

/-- After the run the new hidden state is the whole-batch hidden state of the argument arrays. -/
theorem final13 (c : Dev nD) : (dats m 0 c).arrAt 13 cfg0.N = (hidAll (aX m c) (aH m c) (aW1 m c) (aB1 m c) (aWih m c) (aWhh m c) (aBih m c) (aBhh m c)) :=
  (dats m 0 c).arrAt_eq_of_cover 13 _ (fun t _ => flushed13_eq m c t) cover13

/-! ## The action values: what each point writes back, and the array after the run -/

/-- What point `t` writes back to the action values is block `t` of the whole-batch action values: row `r = 2p + s`
    of the block is row `512 t + r = 2 (256 t + p) + s` of the array. -/
theorem flushed12_eq (c : Dev nD) (t : Fin cfg0.N) :
    (dats m 0 c).flushed 12 t = ((cfg0.win 12).blk t).view.read (Elt Ideal) (qAll (aX m c) (aH m c) (aW1 m c) (aB1 m c) (aWih m c) (aWhh m c) (aBih m c) (aBhh m c) (aW21 m c) (aB21 m c) (aW22 m c) (aB22 m c)) := by
  obtain ⟨-, -, -, -, h0, h1, -⟩ := idx_batch t
  rw [Value.flushed12]
  unfold out0_12
  rw [View.canon_unit_zero hz2]
  simp only [View.ld_unit_zero (S := S256x256) hz2, View.ld_unit_zero (S := S512x256) hz2,
    View.ld_unit_zero (S := S512) hz1, View.ld_unit_zero (S := S256x512) hz2,
    View.ld_unit_zero (S := S1536x512) hz2, View.ld_unit_zero (S := S1536) hz1,
    View.ld_unit_zero (S := S32x512) hz2, View.ld_unit_zero (S := S32) hz1]
  funext y
  obtain ⟨r, a, rfl⟩ : ∃ (r : Fin 512) (a : Fin 32), y = ix2 r a := ⟨y 0, y 1, eq_ix2 y⟩
  have ht : t.val < 256 := Nat.lt_of_lt_of_eq t.isLt N_0
  have hr := r.isLt
  have e : ((cfg0.win 12).blk t).view.emb (ix2 r a) = ix2 (⟨512 * t.val + r.val, by omega⟩ : Fin 131072) a := by
    funext d
    apply Fin.ext
    match d with
    | ⟨0, _⟩ => show win0_12.index t 0 * 512 + 1 * r.val = 512 * t.val + r.val; rw [h0]; omega
    | ⟨1, _⟩ => show win0_12.index t 1 * 32 + 1 * a.val = a.val; rw [h1]; omega
  refine (q_apply (iblk m c 0 t) (iblk m c 2 t) (iblk m c 3 t) (iblk m c 1 t) (iblk m c 4 t) (iblk m c 5 t)
    (iblk m c 6 t) (iblk m c 7 t) (iblk m c 8 t) (iblk m c 10 t) (iblk m c 9 t) (iblk m c 11 t)
    (⟨r.val / 2, by omega⟩ : Fin 256) (⟨r.val % 2, by omega⟩ : Fin 2) a r
    (by show r.val = 2 * (r.val / 2) + r.val % 2; omega)).trans ?_
  rw [View.read_apply]
  show _ = qAll (aX m c) (aH m c) (aW1 m c) (aB1 m c) (aWih m c) (aWhh m c) (aBih m c) (aBhh m c)
    (aW21 m c) (aB21 m c) (aW22 m c) (aB22 m c) (((cfg0.win 12).blk t).view.emb (ix2 r a))
  rw [e, qAll_apply (aX m c) (aH m c) (aW1 m c) (aB1 m c) (aWih m c) (aWhh m c) (aBih m c) (aBhh m c)
      (aW21 m c) (aB21 m c) (aW22 m c) (aB22 m c)
      (⟨256 * t.val + r.val / 2, by omega⟩ : Fin 65536) (⟨r.val % 2, by omega⟩ : Fin 2) a
      (⟨512 * t.val + r.val, by omega⟩ : Fin 131072)
      (by show 512 * t.val + r.val = 2 * (256 * t.val + r.val / 2) + r.val % 2; omega),
    w1blk_eq m c t, b1blk_eq m c t, wihblk_eq m c t, whhblk_eq m c t, bihblk_eq m c t, bhhblk_eq m c t,
    w21blk_eq m c t, b21blk_eq m c t, w22blk_eq m c t, b22blk_eq m c t]
  have ex : (fun k => (iblk m c 0 t : Vec Ideal S256x256 .f32) (ix2 (⟨r.val / 2, by omega⟩ : Fin 256) k))
      = fun k => aX m c (ix2 (⟨256 * t.val + r.val / 2, by omega⟩ : Fin 65536) k) :=
    funext fun k => xblk_apply m c t _ k _ rfl
  have eh : (fun k => (iblk m c 1 t : Vec Ideal S256x512 .f32) (ix2 (⟨r.val / 2, by omega⟩ : Fin 256) k))
      = fun k => aH m c (ix2 (⟨256 * t.val + r.val / 2, by omega⟩ : Fin 65536) k) :=
    funext fun k => hblk_apply m c t _ k _ rfl
  rw [ex, eh]

/-- An index of the action values is in point `t`'s block iff each coordinate is in the block's range. -/
theorem mem_blk12 (t : Fin cfg0.N) (i : S131072x32.Idx) :
    i ∈ ((cfg0.win 12).blk t).view.set ↔ ∀ a : Fin 2, win0_12.index t a * S512x32.size a ≤ (i a).val
      ∧ (i a).val < win0_12.index t a * S512x32.size a + S512x32.size a := by
  show i ∈ ((View.whole main_v0_0).slice (win0_12.rect t)).set ↔ _
  rw [View.set_slice_whole, Rect.mem_set_unit]
  exact Iff.rfl

/-- Row `r` of the action values lies in the block of point `r / 512`. -/
theorem cover12 (i : S131072x32.Idx) :
    ∃ t : Fin cfg0.N, (cfg0.win 12).flush t = true ∧ i ∈ ((cfg0.win 12).blk t).view.set := by
  have hi0 : (i 0).val < 131072 := (i 0).isLt
  have hi1 : (i 1).val < 32 := (i 1).isLt
  have hlt : (i 0).val / 512 < cfg0.N := Nat.lt_of_lt_of_eq (by omega : (i 0).val / 512 < 256) N_0.symm
  obtain ⟨-, -, -, -, h0, h1, -⟩ := idx_batch ⟨(i 0).val / 512, hlt⟩
  refine ⟨⟨(i 0).val / 512, hlt⟩, flush0_12 _, ?_⟩
  rw [mem_blk12]
  intro a
  match a with
  | ⟨0, _⟩ =>
    show win0_12.index ⟨(i 0).val / 512, hlt⟩ 0 * 512 ≤ (i 0).val
      ∧ (i 0).val < win0_12.index ⟨(i 0).val / 512, hlt⟩ 0 * 512 + 512
    rw [h0]
    show (i 0).val / 512 * 512 ≤ (i 0).val ∧ (i 0).val < (i 0).val / 512 * 512 + 512
    omega
  | ⟨1, _⟩ =>
    show win0_12.index ⟨(i 0).val / 512, hlt⟩ 1 * 32 ≤ (i 1).val
      ∧ (i 1).val < win0_12.index ⟨(i 0).val / 512, hlt⟩ 1 * 32 + 32
    rw [h1]
    omega

/-- After the run the action values are the whole-batch action values of the argument arrays. -/
theorem final12 (c : Dev nD) : (dats m 0 c).arrAt 12 cfg0.N = (qAll (aX m c) (aH m c) (aW1 m c) (aB1 m c) (aWih m c) (aWhh m c) (aBih m c) (aBhh m c) (aW21 m c) (aB21 m c) (aW22 m c) (aB22 m c)) :=
  (dats m 0 c).arrAt_eq_of_cover 12 _ (fun t _ => flushed12_eq m c t) cover12

/-! ## The kernel's run, read -/

/-- Every weakly fair execution of the kernel's program ends with the action values and the new hidden state at
    their whole-batch functions of the argument arrays, and the arguments unchanged. -/
theorem run : θ_run defs (onTc (τ := τ) (main (F := Ideal))) ⟨m, fun _ => 0, ρ⟩ fun r => ∀ c : Dev nD,
      r.2.mem ((c : Thread nD τ).loc main_v0_0) = (qAll (aX m c) (aH m c) (aW1 m c) (aB1 m c) (aWih m c) (aWhh m c) (aBih m c) (aBhh m c) (aW21 m c) (aB21 m c) (aW22 m c) (aB22 m c))
      ∧ r.2.mem ((c : Thread nD τ).loc main_v0_1) = (hidAll (aX m c) (aH m c) (aW1 m c) (aB1 m c) (aWih m c) (aWhh m c) (aBih m c) (aBhh m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final12 m c), (h c).2.1.trans (final13 m c), (h c).2.2⟩)
    (Cert.KernelIdeal.Value.run_blocks m ρ)

end Cert.KernelIdeal.Arrays

end
-- ==== Proof.RefRows.lean ====
/-
  What the reference computes, read at one entry.

  The reference applies the same layers to the whole batch at once. Read at batch row `b`, every stage
  depends only on row `b` of the inputs and of the old hidden state and on the weights, so each stage is the
  row function of that row: the rectified first layer, the two gate pre-activations, the gated new hidden
  row and the two action heads, whose rows the final stack-and-flatten interleaves. The logistic function
  appears spelled out as `1 / (1 + exp(-x))`, which is its definition on the extended reals.
-/
import proofs.«159720_j18193481466268_1_alg».proof.Proof.Gen.ReferenceIdeal.Read
import proofs.«159720_j18193481466268_1_alg».proof.Proof.RowSpec
import proofs.«159720_j18193481466268_1_alg».proof.Proof.LibInterleave
import Idealize.ShloMosaic.Lib.ValueIdx

noncomputable section

namespace Cert.ReferenceIdeal.Rows

open Cert.ReferenceIdeal Cert.ReferenceIdeal.Gen Cert.ReferenceIdeal.Read Cert.RowSpec Cert.LibInterleave
open Idealize.ShloMosaic Idealize.ShloMosaic.ValueIdx

/-- An argument array of the reference at the exact reals. -/
abbrev Arr (s : Shape) := (⟨s, .f32⟩ : BufTy).Contents (Elt Ideal)

/-- Two indices of a rank-2 shape with the same coordinates are equal. -/
macro "idx2" : tactic =>
  `(tactic| (funext a; apply Fin.ext; match a with | ⟨0, _⟩ => rfl | ⟨1, _⟩ => rfl))
/-- The same at rank 1. -/
macro "idx1" : tactic =>
  `(tactic| (funext a; apply Fin.ext; match a with | ⟨0, _⟩ => rfl))

/-- The logistic function spelled out as `1 / (1 + exp(-x))`, with the float `1.0` as its word, is the logistic
    function. -/
theorem host_logistic (X : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf X)))
      = Ideal.logistic X := by
  show Ideal.div (Ideal.ofBits .f32 0x3F800000#32) (Ideal.ofBits .f32 0x3F800000#32 + Ideal.exp (-X)) = _
  rw [ofBits_one]
  rfl

/-! ## The first layer and the gate pre-activations -/

/-- The rectified first layer at `(b, k)`: row `b` of the inputs through the layer. -/
theorem fc_apply (x0 : Arr S65536x256) (x2 : Arr S512x256) (x3 : Arr S512) (b : Fin 65536) (k : Fin 512) :
    val_main_v5 (F := Ideal) x0 x2 x3 (ix2 b k) = fcRow (fun k' => x0 (ix2 b k')) x2 x3 k := by
  rw [val_main_v5_apply, val_main_v4_apply, val_main_v1_apply, val_main_v3_apply, val_main_v2_apply,
    val_main_call0_v0_apply, val_main_call0_cst_apply]
  refine congrArg₂ max (congrArg₂ (· + ·) (Finset.sum_congr rfl fun k' _ => ?_) (congrArg x3 (by idx1))) rfl
  rw [val_main_v0_apply]
  exact congrArg₂ (· * ·) (congrArg x0 (by idx2)) (congrArg x2 (by idx2))

/-- The input path's gate pre-activation at `(b, j)`. -/
theorem gi_apply (x0 : Arr S65536x256) (x2 : Arr S512x256) (x3 : Arr S512) (x4 : Arr S1536x512) (x6 : Arr S1536)
    (b : Fin 65536) (j : Fin 1536) :
    val_main_v10 (F := Ideal) x0 x2 x3 x4 x6 (ix2 b j) = lin (fcRow (fun k' => x0 (ix2 b k')) x2 x3) x4 x6 j := by
  rw [val_main_v10_apply, val_main_v7_apply, val_main_v9_apply, val_main_v8_apply]
  refine congrArg₂ (· + ·) (Finset.sum_congr rfl fun k _ => ?_) (congrArg x6 (by idx1))
  rw [val_main_v6_apply]
  refine congrArg₂ (· * ·) ?_ (congrArg x4 (by idx2))
  have e : lidx_main_v7 (ix2 b j) k = ix2 b k := by idx2
  rw [e]
  exact fc_apply x0 x2 x3 b k

/-- The hidden path's gate pre-activation at `(b, j)`. -/
theorem gh_apply (x1 : Arr S65536x512) (x5 : Arr S1536x512) (x7 : Arr S1536) (b : Fin 65536) (j : Fin 1536) :
    val_main_v15 (F := Ideal) x1 x5 x7 (ix2 b j) = lin (fun k => x1 (ix2 b k)) x5 x7 j := by
  rw [val_main_v15_apply, val_main_v12_apply, val_main_v14_apply, val_main_v13_apply]
  refine congrArg₂ (· + ·) (Finset.sum_congr rfl fun k _ => ?_) (congrArg x7 (by idx1))
  rw [val_main_v11_apply]
  exact congrArg₂ (· * ·) (congrArg x1 (by idx2)) (congrArg x5 (by idx2))

/-! ## The new hidden state -/

/-- The new hidden state at `(b, j)` is the new hidden row of batch row `b`. -/
theorem hid_apply (x0 : Arr S65536x256) (x1 : Arr S65536x512) (x2 : Arr S512x256) (x3 : Arr S512)
    (x4 x5 : Arr S1536x512) (x6 x7 : Arr S1536) (b : Fin 65536) (j : Fin 512) :
    val_main_v43 (F := Ideal) x0 x1 x2 x3 x4 x5 x6 x7 (ix2 b j)
      = hidRow (fun k => x0 (ix2 b k)) (fun k => x1 (ix2 b k)) x2 x3 x4 x5 x6 x7 j := by
  simp only [val_main_v43_apply, val_main_v42_apply, val_main_v41_apply, val_main_v40_apply, val_main_v39_apply,
    val_main_cst_3_apply, val_main_v38_apply, val_main_v37_apply, val_main_v36_apply, val_main_v35_apply,
    val_main_v34_apply, val_main_cst_2_apply, val_main_v33_apply, val_main_v32_apply, val_main_cst_1_apply,
    val_main_v31_apply, val_main_v30_apply, val_main_v29_apply, val_main_v28_apply, val_main_v27_apply,
    val_main_cst_0_apply, val_main_v26_apply, val_main_v25_apply, val_main_cst_apply, val_main_v24_apply,
    val_main_v23_apply, val_main_v22_apply, val_main_v21_apply, val_main_v20_apply, val_main_v19_apply,
    val_main_v18_apply, val_main_v17_apply, val_main_v16_apply, host_logistic]
  have e16 : idx_main_v16 (ix2 b j) = ix2 b ⟨j.val, by omega⟩ := by idx2
  have e19 : idx_main_v19 (ix2 b j) = ix2 b ⟨j.val, by omega⟩ := by idx2
  have e17 : idx_main_v17 (ix2 b j) = ix2 b ⟨j.val + 512, by omega⟩ := by
    funext a; apply Fin.ext; match a with | ⟨0, _⟩ => rfl | ⟨1, _⟩ => exact Nat.add_comm _ _
  have e20 : idx_main_v20 (ix2 b j) = ix2 b ⟨j.val + 512, by omega⟩ := by
    funext a; apply Fin.ext; match a with | ⟨0, _⟩ => rfl | ⟨1, _⟩ => exact Nat.add_comm _ _
  have e18 : idx_main_v18 (ix2 b j) = ix2 b ⟨j.val + 1024, by omega⟩ := by
    funext a; apply Fin.ext; match a with | ⟨0, _⟩ => rfl | ⟨1, _⟩ => exact Nat.add_comm _ _
  have e21 : idx_main_v21 (ix2 b j) = ix2 b ⟨j.val + 1024, by omega⟩ := by
    funext a; apply Fin.ext; match a with | ⟨0, _⟩ => rfl | ⟨1, _⟩ => exact Nat.add_comm _ _
  simp only [e16, e17, e18, e19, e20, e21, gi_apply, gh_apply]
  rfl

/-! ## The action values -/

/-- The first head at `(b, a)`. -/
theorem head1_apply (x0 : Arr S65536x256) (x1 : Arr S65536x512) (x2 : Arr S512x256) (x3 : Arr S512)
    (x4 x5 : Arr S1536x512) (x6 x7 : Arr S1536) (x8 : Arr S32x512) (x9 : Arr S32)
    (b : Fin 65536) (a : Fin 32) :
    val_main_v48 (F := Ideal) x0 x1 x2 x3 x4 x5 x6 x7 x8 x9 (ix2 b a)
      = headRow (fun k => x0 (ix2 b k)) (fun k => x1 (ix2 b k)) x2 x3 x4 x5 x6 x7 x8 x9 a := by
  rw [val_main_v48_apply, val_main_v45_apply, val_main_v47_apply, val_main_v46_apply]
  refine congrArg₂ (· + ·) (Finset.sum_congr rfl fun k _ => ?_) (congrArg x9 (by idx1))
  rw [val_main_v44_apply]
  refine congrArg₂ (· * ·) ?_ (congrArg x8 (by idx2))
  have e : lidx_main_v45 (ix2 b a) k = ix2 b k := by idx2
  rw [e]
  exact hid_apply x0 x1 x2 x3 x4 x5 x6 x7 b k

/-- The second head at `(b, a)`. -/
theorem head2_apply (x0 : Arr S65536x256) (x1 : Arr S65536x512) (x2 : Arr S512x256) (x3 : Arr S512)
    (x4 x5 : Arr S1536x512) (x6 x7 : Arr S1536) (x10 : Arr S32x512) (x11 : Arr S32)
    (b : Fin 65536) (a : Fin 32) :
    val_main_v53 (F := Ideal) x0 x1 x2 x3 x4 x5 x6 x7 x10 x11 (ix2 b a)
      = headRow (fun k => x0 (ix2 b k)) (fun k => x1 (ix2 b k)) x2 x3 x4 x5 x6 x7 x10 x11 a := by
  rw [val_main_v53_apply, val_main_v50_apply, val_main_v52_apply, val_main_v51_apply]
  refine congrArg₂ (· + ·) (Finset.sum_congr rfl fun k _ => ?_) (congrArg x11 (by idx1))
  rw [val_main_v49_apply]
  refine congrArg₂ (· * ·) ?_ (congrArg x10 (by idx2))
  have e : lidx_main_v50 (ix2 b a) k = ix2 b k := by idx2
  rw [e]
  exact hid_apply x0 x1 x2 x3 x4 x5 x6 x7 b k

/-- The action values at row `2b + s`: the first head of batch row `b` when `s = 0`, the second when `s = 1`. -/
theorem q_apply (x0 : Arr S65536x256) (x1 : Arr S65536x512) (x2 : Arr S512x256) (x3 : Arr S512)
    (x4 x5 : Arr S1536x512) (x6 x7 : Arr S1536) (x8 : Arr S32x512) (x9 : Arr S32) (x10 : Arr S32x512) (x11 : Arr S32)
    (b : Fin 65536) (s : Fin 2) (a : Fin 32) (r : Fin 131072) (hr : r.val = 2 * b.val + s.val) :
    val_main_v57 (F := Ideal) x0 x1 x2 x3 x4 x5 x6 x7 x8 x9 x10 x11 (ix2 r a)
      = if s.val = 0 then headRow (fun k => x0 (ix2 b k)) (fun k => x1 (ix2 b k)) x2 x3 x4 x5 x6 x7 x8 x9 a
        else headRow (fun k => x0 (ix2 b k)) (fun k => x1 (ix2 b k)) x2 x3 x4 x5 x6 x7 x10 x11 a := by
  have hb := b.isLt
  have hs := s.isLt
  have ha := a.isLt
  have e : idx_main_v57 (ix2 r a) = ix3 b s a := by
    funext d; apply Fin.ext
    match d with
    | ⟨0, _⟩ => show (r.val * 32 + a.val) / 64 = b.val; omega
    | ⟨1, _⟩ => show (r.val * 32 + a.val) / 32 % 2 = s.val; omega
    | ⟨2, _⟩ => show (r.val * 32 + a.val) % 32 = a.val; omega
  rw [val_main_v57_apply, e]
  unfold val_main_v56
  refine (stack2_apply _ _ concatenates_S65536x1x32_S65536x1x32_S65536x2x32_d1 b s a).trans ?_
  refine if_congr Iff.rfl ?_ ?_
  · have e1 : idx_main_v54 (ix3 b (0 : Fin 1) a) = ix2 b a := by idx2
    rw [val_main_v54_apply, e1]
    exact head1_apply x0 x1 x2 x3 x4 x5 x6 x7 x8 x9 b a
  · have e2 : idx_main_v55 (ix3 b (0 : Fin 1) a) = ix2 b a := by idx2
    rw [val_main_v55_apply, e2]
    exact head2_apply x0 x1 x2 x3 x4 x5 x6 x7 x10 x11 b a

end Cert.ReferenceIdeal.Rows

end
-- ==== Proof.RefArrays.lean ====
/-
  The reference's two results as whole-batch functions of the argument arrays.

  Read at every entry the reference's new hidden state is the new hidden row of that batch row, and its action
  values at row `r` are head `r mod 2` of batch row `r / 2`: the same whole-batch functions the kernel's
  result arrays end at.
-/
import proofs.«159720_j18193481466268_1_alg».proof.Proof.Gen.ReferenceIdeal.Read
import proofs.«159720_j18193481466268_1_alg».proof.Proof.RefRows
import proofs.«159720_j18193481466268_1_alg».proof.Proof.BatchSpec
import Idealize.ShloMosaic.Lib.ValueIdx

noncomputable section

namespace Cert.ReferenceIdeal.Arrays

open Cert.ReferenceIdeal Cert.ReferenceIdeal.Gen Cert.ReferenceIdeal.Read Cert.ReferenceIdeal.Rows Cert.RowSpec
open Idealize.ShloMosaic Idealize.ShloMosaic.ValueIdx

/-- The reference's new hidden state is the whole-batch hidden state. -/
theorem hid_eq (x0 : Arr S65536x256) (x1 : Arr S65536x512) (x2 : Arr S512x256) (x3 : Arr S512)
    (x4 x5 : Arr S1536x512) (x6 x7 : Arr S1536) :
    val_main_v43 (F := Ideal) x0 x1 x2 x3 x4 x5 x6 x7 = hidAll x0 x1 x2 x3 x4 x5 x6 x7 := by
  funext i
  obtain ⟨b, j, rfl⟩ : ∃ (b : Fin 65536) (j : Fin 512), i = ix2 b j := ⟨i 0, i 1, eq_ix2 i⟩
  rw [hid_apply, hidAll_apply]

/-- The reference's action values are the whole-batch action values. -/
theorem q_eq (x0 : Arr S65536x256) (x1 : Arr S65536x512) (x2 : Arr S512x256) (x3 : Arr S512)
    (x4 x5 : Arr S1536x512) (x6 x7 : Arr S1536) (x8 : Arr S32x512) (x9 : Arr S32) (x10 : Arr S32x512) (x11 : Arr S32) :
    val_main_v57 (F := Ideal) x0 x1 x2 x3 x4 x5 x6 x7 x8 x9 x10 x11 = qAll x0 x1 x2 x3 x4 x5 x6 x7 x8 x9 x10 x11 := by
  funext i
  obtain ⟨r, a, rfl⟩ : ∃ (r : Fin 131072) (a : Fin 32), i = ix2 r a := ⟨i 0, i 1, eq_ix2 i⟩
  have hr := r.isLt
  rw [q_apply x0 x1 x2 x3 x4 x5 x6 x7 x8 x9 x10 x11 (⟨r.val / 2, by omega⟩ : Fin 65536) (⟨r.val % 2, by omega⟩ : Fin 2) a r
      (by show r.val = 2 * (r.val / 2) + r.val % 2; omega),
    qAll_apply x0 x1 x2 x3 x4 x5 x6 x7 x8 x9 x10 x11 (⟨r.val / 2, by omega⟩ : Fin 65536) (⟨r.val % 2, by omega⟩ : Fin 2) a r
      (by show r.val = 2 * (r.val / 2) + r.val % 2; omega)]

end Cert.ReferenceIdeal.Arrays

end
-- ==== Proof.lean ====
/-
  A recurrent agent's forward pass, fused into one kernel over 256-row batch blocks, against the same network
  written layer by layer over the whole batch.

  Both programs compute, for every batch row, a rectified first layer, the two gate pre-activations of a gated
  recurrent cell, the new hidden row `(1 - z) · n + z · h` with `r = σ(·)`, `z = σ(·)`, `n = tanh(· + r · ·)`, and
  two linear action heads whose rows are interleaved in the first result. On the extended reals the kernel's
  reduced-precision matrix operands are the operands themselves and each product into a zero accumulator is the
  plain sum over the contracted axis, so every stage is the same function of one batch row on both sides; the
  reference's `1 / (1 + exp(-x))` is the logistic function's definition there. The kernel's 256 blocks tile the
  batch, so its two result arrays end at the same whole-batch functions of the arguments as the reference's.
  No law beyond this stage-by-stage identity is needed, and the inputs' finiteness is never used.

  The frames of the two kernel programs are their generated frame certificates; the reference's frame is its
  generated run with the results dropped; the idealization rewrote nothing, so its preservation claim is trivial.
-/
import proofs.«159720_j18193481466268_1_alg».proof.Defs
import proofs.«159720_j18193481466268_1_alg».proof.Proof.Gen.Kernel
import proofs.«159720_j18193481466268_1_alg».proof.Proof.Gen.Kernel.Frame
import proofs.«159720_j18193481466268_1_alg».proof.Proof.Gen.KernelIdeal
import proofs.«159720_j18193481466268_1_alg».proof.Proof.Gen.KernelIdeal.Frame
import proofs.«159720_j18193481466268_1_alg».proof.Proof.Gen.KernelIdeal.Value
import proofs.«159720_j18193481466268_1_alg».proof.Proof.Gen.ReferenceIdeal
import proofs.«159720_j18193481466268_1_alg».proof.Proof.Gen.ReferenceIdeal.Run
import proofs.«159720_j18193481466268_1_alg».proof.Proof.Gen.ReferenceIdeal.Read
import proofs.«159720_j18193481466268_1_alg».proof.Proof.Gen.Pre_finite_inputs
import proofs.«159720_j18193481466268_1_alg».proof.Proof.KernelArrays
import proofs.«159720_j18193481466268_1_alg».proof.Proof.RefArrays
import Idealize.ShloMosaic.Adequacy
import Idealize.ShloMosaic.Init

noncomputable section

namespace Cert.Proof

open Idealize.ShloMosaic Idealize.SL.Sem

/-- The kernel as printed terminates without a fault and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the twelve arguments, the kernel's action values and new hidden state and the
    reference's are the same whole-batch functions of those arguments. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11⟩ := hagree c
    rw [Cert.ReferenceIdeal.Read.val_main_v57_eq, Cert.ReferenceIdeal.Arrays.q_eq,
      e0, e1, e2, e3, e4, e5, e6, e7, e8, e9, e10, e11]
  · obtain ⟨e0, e1, e2, e3, e4, e5, e6, e7, -⟩ := hagree c
    rw [Cert.ReferenceIdeal.Read.val_main_v43_eq, Cert.ReferenceIdeal.Arrays.hid_eq,
      e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
